-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .i1⟩
  | .hbm, ⟨15, _⟩ => ⟨S4096x1, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_4 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.QuantBody.lean ====
/-
  The weight-quantisation launch, one grid point at a time: each of its sixteen points reads a block of 256 whole rows of the
  weight matrix and writes the block of ternary values of those rows. What the output's staging buffer holds after the
  body is the store's value over the loaded rows; the point's proof data say so, and the body obligation is the body's run.
-/
import proofs.«155224_j74474732912767_1_alg».proof.Proof.Gen.KernelIdeal.Launch
import proofs.«155224_j74474732912767_1_alg».proof.Proof.Gen.KernelIdeal.Skeleton
import proofs.«155224_j74474732912767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the core's buffer contents when the launch is entered
variable (V : (c : Dev nD) → (b : Ref sig .tc) → Buf (Elt F) ((c : Thread nD τ).loc b))

/-- Block `t` of window `w`, read off its array as the launch finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds block `t` of the weights at point `t`. -/
theorem qbefore_w_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The whole 256×4096 staging buffer as one rectangle. -/
abbrev qrect : Rect S256x4096 := Rect.unit (s := S256x4096) ![0, 0] S256x4096.size inb_S256x4096_S256x4096_0_0

/-- What the body leaves in the output's staging buffer: the ternary values of the loaded rows, stored whole. -/
def qout (x0 : Vec F S256x4096 .f32) : Vec F S256x4096 .bf16 :=
  View.canon [⟨qrect, k0_pay1 (View.ld x0 qrect)⟩]

theorem qcover (p0 : Vec F S256x4096 .bf16) (y : S256x4096.Idx) :
    ∃ pc ∈ ([⟨qrect, p0⟩] : List (View.Piece (Elt F) S256x4096 .bf16)), y ∈ pc.1.set :=
  View.cover_of_tiled [⟨qrect, p0⟩] S256x4096.size (by rfl) y

set_option maxHeartbeats 1000000 in
/-- The body's run on whole staging memrefs: the weights' block is read, the output's buffer ends at `qout` of it. -/
theorem qsound_kernel (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (qout x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (qcover _)

/-- The launch's proof data on core `c`: the arrays as found; after the body the weights' buffer at its block, the
    output's at `qout` of that block; nothing kept between points. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qout (qblk V c 0 t)
  Φ _ := Pipeline.ΦA spec0 c
  q _ := fullShare
  owed _ := 0

theorem qA_eq (c : Dev nD) (w : Fin cfg0.W) : (qdat V c).A w = V c (Pipeline.arrRef spec0 w) := by
  dsimp only [qdat]
theorem qafter_w (c : Dev nD) (t : Fin cfg0.N) : (qdat V c).after 0 t = qblk V c 0 t := by dsimp only [qdat]
theorem qafter_out (c : Dev nD) (t : Fin cfg0.N) : (qdat V c).after 1 t = qout (qblk V c 0 t) := by dsimp only [qdat]
theorem qbefore_w (c : Dev nD) (t : Fin cfg0.N) (d) : (qdat V c).before 0 t d = qblk V c 0 t :=
  qbefore_w_of V (qdat V c) (qA_eq V c 0) (qafter_w V c) t d

def qbodyPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d)))

def qbodyPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t))

theorem qsound_body (c : Dev nD) (t : Fin cfg0.N) :
    qbodyPre V c t ⊢ wp frame (wpE (defs₀ (F := F)) Variants.none c none) Set.univ (bodyAt0 t) (fun _ => qbodyPost V c t) := by
  unfold qbodyPre qbodyPost bodyAt0
  simp only [qbefore_w]
  rw [show (qdat V c).Φ t.succ = (qdat V c).Φ t.castSucc from rfl,
    show (qdat V c).owesAt () t.succ = (qdat V c).owesAt () t.castSucc from rfl,
    qafter_w, qafter_out]
  iintro ⟨HΦ, Ho, ⟨%d0, H0⟩, ⟨%d1, H1⟩⟩
  iapply (qsound_kernel c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem qbody_obligation (c : Dev nD) : BodyObligation (qdat (F := F) V c) (defs₀ (F := F)) Variants.none () Set.univ := fun t => by
  rw [bigSep_W0, bigSep_W0]
  exact qsound_body V c t

end

end Cert.KernelIdeal.Frame

end
-- ==== Proof.MatmulRuns.lean ====
/-
  The matmul launch's body, run once in each of the three situations a grid point can be in along the contraction axis:
  the first step (the accumulator is cleared, then the step's product is added), a middle step (the product is added to
  what the step before left), and the last step (the product is added and the accumulator plus the bias row is stored
  into the output block). Each run hands back the pieces its stores leave in the accumulator and in the output block.
-/
import proofs.«155224_j74474732912767_1_alg».proof.Proof.Gen.KernelIdeal.Launch
import proofs.«155224_j74474732912767_1_alg».proof.Proof.Gen.KernelIdeal.Skeleton
import proofs.«155224_j74474732912767_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w` of the matmul launch, read off its array as the launch finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the window's block at every point, fetched there or carried over. -/
theorem mbefore_x_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mbefore_q_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mbefore_b_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)
end

/-! ## The body's two conditions along the contraction axis -/

/-- "This is the first contraction step." -/
abbrev mfirst (i : grid1.Coords) : Prop := (Scalar.cmpi .ne (Scalar.extui (Scalar.cmpi .eq (BitVec.ofNat 32 (i 2).val) 0#32)) 0#32) = 1#1
theorem hmfirst : ∀ t : Fin cfg1.N, mfirst (grid1.coords t) ↔ t.val % 4 = 0 :=
  (by decide +kernel : ∀ t : Fin grid1.N, mfirst (grid1.coords t) ↔ t.val % 4 = 0)
/-- "This is the last contraction step." -/
abbrev mlast (i : grid1.Coords) : Prop := k1_cond2 i = 1#1
theorem hmlast : ∀ t : Fin cfg1.N, mlast (grid1.coords t) ↔ t.val % 4 = 3 :=
  (by decide +kernel : ∀ t : Fin grid1.N, mlast (grid1.coords t) ↔ t.val % 4 = 3)

/-! ## Where the windows are idle -/

theorem mlive_x : ∀ t : Fin cfg1.N, cfg1.idle 0 (grid1.coords t) = false := by decide +kernel
theorem mlive_q : ∀ t : Fin cfg1.N, cfg1.idle 1 (grid1.coords t) = false := by decide +kernel
theorem mlive_b : ∀ t : Fin cfg1.N, cfg1.idle 2 (grid1.coords t) = false := by decide +kernel
/-- Off the last step the output block is idle and is not written back. -/
theorem midle_out : ∀ t : Fin cfg1.N, ¬mlast (grid1.coords t) → cfg1.idle 3 (grid1.coords t) = true := by decide +kernel
theorem mnoflush_out : ∀ t : Fin cfg1.N, ¬mlast (grid1.coords t) → (cfg1.win 3).flush t = false := by decide +kernel
/-- At the last step it is live. -/
theorem mlive_out : ∀ t : Fin cfg1.N, mlast (grid1.coords t) → cfg1.idle 3 (grid1.coords t) = false := by decide +kernel

/-! ## The memrefs the body is called with -/

abbrev VOut : View sig .tc .vmem S1024x1024 .f32 := (Memref.whole cc1_stg3_0 : Memref sig .tc .vmem S1024x1024 .f32).view
abbrev mm_x (t : Fin cfg1.N) : Memref sig .tc .vmem S1024x1024 .f32 := win1_0.stage (cfg1.slots t 0)
abbrev hm_x (t : Fin cfg1.N) : (mm_x t).IsWhole := hstage1_0 ((cfg1.slots t 0).cast nbuf1_0)
abbrev mm_q (t : Fin cfg1.N) : Memref sig .tc .vmem S1024x1024 .bf16 := win1_1.stage (cfg1.slots t 1)
abbrev hm_q (t : Fin cfg1.N) : (mm_q t).IsWhole := hstage1_1 ((cfg1.slots t 1).cast nbuf1_1)
abbrev mm_b (t : Fin cfg1.N) : Memref sig .tc .vmem S1x1024 .f32 := win1_2.stage (cfg1.slots t 2)
abbrev hm_b (t : Fin cfg1.N) : (mm_b t).IsWhole := hstage1_2 ((cfg1.slots t 2).cast nbuf1_2)
abbrev mm_o (t : Fin cfg1.N) : Memref sig .tc .vmem S1024x1024 .f32 := win1_3.stage (cfg1.slots t 3)
abbrev hm_o (t : Fin cfg1.N) : (mm_o t).IsWhole := hstage1_3 ((cfg1.slots t 3).cast nbuf1_3)
/-- The accumulator: a whole scoped buffer of the kernel's own. -/
abbrev accM : Memref sig .tc .vmem S1024x1024 .f32 := Memref.whole cc1_scratch0
abbrev VAcc : View sig .tc .vmem S1024x1024 .f32 := accM.view

/-- The launch's standing invariant with the accumulator spelt as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) accM fullShare d)) ∗ (∃ r, prngReg c r)) := by
  unfold Pipeline.ΦA; rw [scopedRest1_eq]; simp only [accM, owns_whole]; try rfl

/-! ## The three runs -/

set_option maxHeartbeats 1000000 in
/-- FIRST step: the accumulator may hold anything; the output block is left as found. -/
noncomputable def mrunFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : mfirst i) (hc1 : ¬mlast i)
    (x0 : Vec F S1024x1024 .f32) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- MIDDLE step: the accumulator holds what the step before left (`xs`); the output block is left as found. -/
noncomputable def mrunMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : ¬mlast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- LAST step: the accumulator holds what the step before left (`xs`); the output block may hold anything and is stored whole. -/
noncomputable def mrunLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.MatmulBody.lean ====
/-
  The matmul launch point by point. Along the contraction axis (the fastest grid axis, four steps) the accumulator is
  cleared at the first step and carried from each step to the next; the output block is stored at the last step only.
  What the accumulator and the output block's buffer hold after every point is defined by recursion on the point; the
  launch's proof data carry the accumulator's contents in the invariant between points, and the body obligation is the
  matching run of the body at each point.
-/
import proofs.«155224_j74474732912767_1_alg».proof.Proof.MatmulRuns

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- First step: what is left in the output block's buffer (a placeholder where the step stores nothing there). -/
def moutFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : mfirst i) (hc1 : ¬mlast i)
    (x0 : Vec F S1024x1024 .f32) (x1 : Vec F S1024x1024 .bf16) (x2 : Vec F S1x1024 .f32) : Vec F S1024x1024 .f32 :=
  VOut.read (Elt F) (VOut.writes (Elt F) VOut.junk (mrunFirst c i arg3 harg3 arg4 harg4 arg5 harg5 arg6 harg6 arg7 harg7 hc0 hc1 x0 x1 x2).1)
/-- First step: the accumulator's pieces cover it. -/
theorem mscFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : mfirst i) (hc1 : ¬mlast i)
    (x0 : Vec F S1024x1024 .f32) (x1 : Vec F S1024x1024 .bf16) (x2 : Vec F S1x1024 .f32) (y : S1024x1024.Idx) :
    ∃ pc ∈ (mrunFirst c i arg3 harg3 arg4 harg4 arg5 harg5 arg6 harg6 arg7 harg7 hc0 hc1 x0 x1 x2).2.1, y ∈ pc.1.set :=
  View.cover_of_tiledL (mrunFirst c i arg3 harg3 arg4 harg4 arg5 harg5 arg6 harg6 arg7 harg7 hc0 hc1 x0 x1 x2).2.1 S1024x1024.size (by sl_kernel_rfl) y
/-- First step: what is left in the accumulator. -/
def maccFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : mfirst i) (hc1 : ¬mlast i)
    (x0 : Vec F S1024x1024 .f32) (x1 : Vec F S1024x1024 .bf16) (x2 : Vec F S1x1024 .f32) : Vec F S1024x1024 .f32 :=
  VAcc.read (Elt F) (VAcc.writes (Elt F) VAcc.junk (mrunFirst c i arg3 harg3 arg4 harg4 arg5 harg5 arg6 harg6 arg7 harg7 hc0 hc1 x0 x1 x2).2.1)

/-- Mid step: what is left in the output block's buffer (a placeholder where the step stores nothing there). -/
def moutMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : ¬mlast i)
    (x0 : Vec F S1024x1024 .f32) (x1 : Vec F S1024x1024 .bf16) (x2 : Vec F S1x1024 .f32) (xs : Vec F S1024x1024 .f32) : Vec F S1024x1024 .f32 :=
  VOut.read (Elt F) (VOut.writes (Elt F) VOut.junk (mrunMid c i arg3 harg3 arg4 harg4 arg5 harg5 arg6 harg6 arg7 harg7 hc0 hc1 x0 x1 x2 xs).1)
/-- Mid step: the accumulator's pieces cover it. -/
theorem mscMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : ¬mlast i)
    (x0 : Vec F S1024x1024 .f32) (x1 : Vec F S1024x1024 .bf16) (x2 : Vec F S1x1024 .f32) (xs : Vec F S1024x1024 .f32) (y : S1024x1024.Idx) :
    ∃ pc ∈ (mrunMid c i arg3 harg3 arg4 harg4 arg5 harg5 arg6 harg6 arg7 harg7 hc0 hc1 x0 x1 x2 xs).2.1, y ∈ pc.1.set :=
  View.cover_of_tiledL (mrunMid c i arg3 harg3 arg4 harg4 arg5 harg5 arg6 harg6 arg7 harg7 hc0 hc1 x0 x1 x2 xs).2.1 S1024x1024.size (by sl_kernel_rfl) y
/-- Mid step: what is left in the accumulator. -/
def maccMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : ¬mlast i)
    (x0 : Vec F S1024x1024 .f32) (x1 : Vec F S1024x1024 .bf16) (x2 : Vec F S1x1024 .f32) (xs : Vec F S1024x1024 .f32) : Vec F S1024x1024 .f32 :=
  VAcc.read (Elt F) (VAcc.writes (Elt F) VAcc.junk (mrunMid c i arg3 harg3 arg4 harg4 arg5 harg5 arg6 harg6 arg7 harg7 hc0 hc1 x0 x1 x2 xs).2.1)

/-- Last step: what is left in the output block's buffer (a placeholder where the step stores nothing there). -/
def moutLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) : Vec F S1024x1024 .f32 :=
  VOut.read (Elt F) (VOut.writes (Elt F) VOut.junk (mrunLast c i arg3 harg3 arg4 harg4 arg5 harg5 arg6 harg6 arg7 harg7 hc0 hc1 x0 x1 x2 xs).1)
/-- Last step: the accumulator's pieces cover it. -/
theorem mscLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) (y : S1024x1024.Idx) :
    ∃ pc ∈ (mrunLast c i arg3 harg3 arg4 harg4 arg5 harg5 arg6 harg6 arg7 harg7 hc0 hc1 x0 x1 x2 xs).2.1, y ∈ pc.1.set :=
  View.cover_of_tiledL (mrunLast c i arg3 harg3 arg4 harg4 arg5 harg5 arg6 harg6 arg7 harg7 hc0 hc1 x0 x1 x2 xs).2.1 S1024x1024.size (by sl_kernel_rfl) y
/-- Last step: what is left in the accumulator. -/
def maccLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) : Vec F S1024x1024 .f32 :=
  VAcc.read (Elt F) (VAcc.writes (Elt F) VAcc.junk (mrunLast c i arg3 harg3 arg4 harg4 arg5 harg5 arg6 harg6 arg7 harg7 hc0 hc1 x0 x1 x2 xs).2.1)
/-- Last step: the output block's pieces cover it. -/
theorem mocLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) (y : S1024x1024.Idx) :
    ∃ pc ∈ (mrunLast c i arg3 harg3 arg4 harg4 arg5 harg5 arg6 harg6 arg7 harg7 hc0 hc1 x0 x1 x2 xs).1, y ∈ pc.1.set :=
  View.cover_of_tiledL (mrunLast c i arg3 harg3 arg4 harg4 arg5 harg5 arg6 harg6 arg7 harg7 hc0 hc1 x0 x1 x2 xs).1 S1024x1024.size (by sl_kernel_rfl) y

section
variable (V : (c : Dev nD) → (b : Ref sig .tc) → Buf (Elt F) ((c : Thread nD τ).loc b))

/-- After point `n`: the output block's buffer and the accumulator (a pair), by the step the point is at along the contraction axis. -/
def moutsAt (c : Dev nD) : (n : ℕ) → n < cfg1.N → Vec F S1024x1024 .f32 × Vec F S1024x1024 .f32
  | 0, hn => (moutFirst c (grid1.coords ⟨0, hn⟩) (mm_x ⟨0, hn⟩) (hm_x ⟨0, hn⟩) (mm_q ⟨0, hn⟩) (hm_q ⟨0, hn⟩) (mm_b ⟨0, hn⟩) (hm_b ⟨0, hn⟩) (mm_o ⟨0, hn⟩) (hm_o ⟨0, hn⟩) accM (Memref.isWhole_whole _) ((hmfirst ⟨0, hn⟩).mpr (Nat.zero_mod _)) (fun h => (fun h => by (try dsimp only at h); omega) ((hmlast ⟨0, hn⟩).mp h)) (mblk V c 0 ⟨0, hn⟩) (mblk V c 1 ⟨0, hn⟩) (mblk V c 2 ⟨0, hn⟩), maccFirst c (grid1.coords ⟨0, hn⟩) (mm_x ⟨0, hn⟩) (hm_x ⟨0, hn⟩) (mm_q ⟨0, hn⟩) (hm_q ⟨0, hn⟩) (mm_b ⟨0, hn⟩) (hm_b ⟨0, hn⟩) (mm_o ⟨0, hn⟩) (hm_o ⟨0, hn⟩) accM (Memref.isWhole_whole _) ((hmfirst ⟨0, hn⟩).mpr (Nat.zero_mod _)) (fun h => (fun h => by (try dsimp only at h); omega) ((hmlast ⟨0, hn⟩).mp h)) (mblk V c 0 ⟨0, hn⟩) (mblk V c 1 ⟨0, hn⟩) (mblk V c 2 ⟨0, hn⟩))
  | n + 1, hn =>
    if h0 : (n + 1) % 4 = 0 then
      if h1 : (n + 1) % 4 = 3 then
        False.elim (by omega)
      else
        (moutFirst c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) ((hmfirst ⟨n + 1, hn⟩).mpr h0) (fun h => h1 ((hmlast ⟨n + 1, hn⟩).mp h)) (mblk V c 0 ⟨n + 1, hn⟩) (mblk V c 1 ⟨n + 1, hn⟩) (mblk V c 2 ⟨n + 1, hn⟩), maccFirst c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) ((hmfirst ⟨n + 1, hn⟩).mpr h0) (fun h => h1 ((hmlast ⟨n + 1, hn⟩).mp h)) (mblk V c 0 ⟨n + 1, hn⟩) (mblk V c 1 ⟨n + 1, hn⟩) (mblk V c 2 ⟨n + 1, hn⟩))
    else
      if h1 : (n + 1) % 4 = 3 then
        (moutLast c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) (fun h => h0 ((hmfirst ⟨n + 1, hn⟩).mp h)) ((hmlast ⟨n + 1, hn⟩).mpr h1) (mblk V c 0 ⟨n + 1, hn⟩) (mblk V c 1 ⟨n + 1, hn⟩) (mblk V c 2 ⟨n + 1, hn⟩) (moutsAt c n (Nat.lt_of_succ_lt hn)).2, maccLast c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) (fun h => h0 ((hmfirst ⟨n + 1, hn⟩).mp h)) ((hmlast ⟨n + 1, hn⟩).mpr h1) (mblk V c 0 ⟨n + 1, hn⟩) (mblk V c 1 ⟨n + 1, hn⟩) (mblk V c 2 ⟨n + 1, hn⟩) (moutsAt c n (Nat.lt_of_succ_lt hn)).2)
      else
        (moutMid c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) (fun h => h0 ((hmfirst ⟨n + 1, hn⟩).mp h)) (fun h => h1 ((hmlast ⟨n + 1, hn⟩).mp h)) (mblk V c 0 ⟨n + 1, hn⟩) (mblk V c 1 ⟨n + 1, hn⟩) (mblk V c 2 ⟨n + 1, hn⟩) (moutsAt c n (Nat.lt_of_succ_lt hn)).2, maccMid c (grid1.coords ⟨n + 1, hn⟩) (mm_x ⟨n + 1, hn⟩) (hm_x ⟨n + 1, hn⟩) (mm_q ⟨n + 1, hn⟩) (hm_q ⟨n + 1, hn⟩) (mm_b ⟨n + 1, hn⟩) (hm_b ⟨n + 1, hn⟩) (mm_o ⟨n + 1, hn⟩) (hm_o ⟨n + 1, hn⟩) accM (Memref.isWhole_whole _) (fun h => h0 ((hmfirst ⟨n + 1, hn⟩).mp h)) (fun h => h1 ((hmlast ⟨n + 1, hn⟩).mp h)) (mblk V c 0 ⟨n + 1, hn⟩) (mblk V c 1 ⟨n + 1, hn⟩) (mblk V c 2 ⟨n + 1, hn⟩) (moutsAt c n (Nat.lt_of_succ_lt hn)).2)

theorem moutsAt_first (c : Dev nD) (t : Fin cfg1.N) (h0 : t.val % 4 = 0) (h1 : ¬t.val % 4 = 3) :
    moutsAt V c t.val t.isLt = (moutFirst c (grid1.coords t) (mm_x t) (hm_x t) (mm_q t) (hm_q t) (mm_b t) (hm_b t) (mm_o t) (hm_o t) accM (Memref.isWhole_whole _) ((hmfirst t).mpr h0) (fun h => h1 ((hmlast t).mp h)) (mblk V c 0 t) (mblk V c 1 t) (mblk V c 2 t), maccFirst c (grid1.coords t) (mm_x t) (hm_x t) (mm_q t) (hm_q t) (mm_b t) (hm_b t) (mm_o t) (hm_o t) accM (Memref.isWhole_whole _) ((hmfirst t).mpr h0) (fun h => h1 ((hmlast t).mp h)) (mblk V c 0 t) (mblk V c 1 t) (mblk V c 2 t)) := by
  obtain ⟨n, hn⟩ := t
  cases n with
  | zero => exact rfl
  | succ n => exact (dif_pos h0).trans ((dif_neg h1).trans rfl)

theorem moutsAt_mid (c : Dev nD) (t : Fin cfg1.N) (h0 : ¬t.val % 4 = 0) (h1 : ¬t.val % 4 = 3) :
    moutsAt V c t.val t.isLt = (moutMid c (grid1.coords t) (mm_x t) (hm_x t) (mm_q t) (hm_q t) (mm_b t) (hm_b t) (mm_o t) (hm_o t) accM (Memref.isWhole_whole _) (fun h => h0 ((hmfirst t).mp h)) (fun h => h1 ((hmlast t).mp h)) (mblk V c 0 t) (mblk V c 1 t) (mblk V c 2 t) (moutsAt V c (t.val - 1) (Nat.lt_of_le_of_lt (Nat.sub_le _ _) t.isLt)).2, maccMid c (grid1.coords t) (mm_x t) (hm_x t) (mm_q t) (hm_q t) (mm_b t) (hm_b t) (mm_o t) (hm_o t) accM (Memref.isWhole_whole _) (fun h => h0 ((hmfirst t).mp h)) (fun h => h1 ((hmlast t).mp h)) (mblk V c 0 t) (mblk V c 1 t) (mblk V c 2 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem moutsAt_last (c : Dev nD) (t : Fin cfg1.N) (h0 : ¬t.val % 4 = 0) (h1 : t.val % 4 = 3) :
    moutsAt V c t.val t.isLt = (moutLast c (grid1.coords t) (mm_x t) (hm_x t) (mm_q t) (hm_q t) (mm_b t) (hm_b t) (mm_o t) (hm_o t) accM (Memref.isWhole_whole _) (fun h => h0 ((hmfirst t).mp h)) ((hmlast t).mpr h1) (mblk V c 0 t) (mblk V c 1 t) (mblk V c 2 t) (moutsAt V c (t.val - 1) (Nat.lt_of_le_of_lt (Nat.sub_le _ _) t.isLt)).2, maccLast c (grid1.coords t) (mm_x t) (hm_x t) (mm_q t) (hm_q t) (mm_b t) (hm_b t) (mm_o t) (hm_o t) accM (Memref.isWhole_whole _) (fun h => h0 ((hmfirst t).mp h)) ((hmlast t).mpr h1) (mblk V c 0 t) (mblk V c 1 t) (mblk V c 2 t) (moutsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: at the start the standing one (the accumulator at anything); afterwards
    the accumulator at what the point before left in it, beside the other launch's staging buffers and the generator register. -/
def mPhi (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accM fullShare ((moutsAt V c n hn).2)) ∗ (∃ r, prngReg c r))

theorem mPhi_zero (c : Dev nD) (n : ℕ) (h : n ≤ cfg1.N) (hz : n = 0) : mPhi V c n h = Pipeline.ΦA spec1 c := by
  subst hz; rfl
theorem mPhi_succ (c : Dev nD) (n : ℕ) (hn : n < cfg1.N) :
    mPhi V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accM fullShare ((moutsAt V c n hn).2)) ∗ (∃ r, prngReg c r)) := rfl
theorem mPhi_pos (c : Dev nD) (n : ℕ) (h : n ≤ cfg1.N) (hz : n ≠ 0) :
    mPhi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accM fullShare ((moutsAt V c (n - 1) (by omega)).2)) ∗ (∃ r, prngReg c r)) := by
  cases n with
  | zero => exact absurd rfl hz
  | succ n => rfl

/-- The matmul launch's proof data on core `c`. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (moutsAt V c t.val t.isLt).1
  Φ t := mPhi V c t.val (Nat.le_of_lt_succ t.isLt)
  q _ := fullShare
  owed _ := 0

theorem mA_eq (c : Dev nD) (w : Fin cfg1.W) : (mdat V c).A w = V c (Pipeline.arrRef spec1 w) := by
  dsimp only [mdat]
theorem mPhi_castSucc (c : Dev nD) (t : Fin cfg1.N) :
    (mdat V c).Φ t.castSucc = mPhi V c t.val (Nat.le_of_lt t.isLt) := by
  dsimp only [mdat]; simp only [Fin.coe_castSucc]
theorem mafter_x (c : Dev nD) (t : Fin cfg1.N) : (mdat V c).after 0 t = mblk V c 0 t := by dsimp only [mdat]
theorem mafter_q (c : Dev nD) (t : Fin cfg1.N) : (mdat V c).after 1 t = mblk V c 1 t := by dsimp only [mdat]
theorem mafter_b (c : Dev nD) (t : Fin cfg1.N) : (mdat V c).after 2 t = mblk V c 2 t := by dsimp only [mdat]
theorem mafter_out (c : Dev nD) (t : Fin cfg1.N) : (mdat V c).after 3 t = (moutsAt V c t.val t.isLt).1 := by dsimp only [mdat]
theorem mbefore_x (c : Dev nD) (t : Fin cfg1.N) (d) : (mdat V c).before 0 t d = mblk V c 0 t :=
  mbefore_x_of V (mdat V c) (mA_eq V c 0) (mafter_x V c) t d
theorem mbefore_q (c : Dev nD) (t : Fin cfg1.N) (d) : (mdat V c).before 1 t d = mblk V c 1 t :=
  mbefore_q_of V (mdat V c) (mA_eq V c 1) (mafter_q V c) t d
theorem mbefore_b (c : Dev nD) (t : Fin cfg1.N) (d) : (mdat V c).before 2 t d = mblk V c 2 t :=
  mbefore_b_of V (mdat V c) (mA_eq V c 2) (mafter_b V c) t d

def mbodyPre (c : Dev nD) (t : Fin cfg1.N) : sProp 𝕄 :=
  iprop((mdat V c).Φ t.castSucc ∗ (mdat V c).owesAt () t.castSucc
    ∗ (∃ d, owns (c : Thread nD τ) (mm_x t) fullShare ((mdat V c).before 0 t d))
    ∗ (∃ d, owns (c : Thread nD τ) (mm_q t) fullShare ((mdat V c).before 1 t d))
    ∗ (∃ d, owns (c : Thread nD τ) (mm_b t) fullShare ((mdat V c).before 2 t d))
    ∗ (∃ d, owns (c : Thread nD τ) (mm_o t) fullShare ((mdat V c).before 3 t d)))

def mbodyPost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t)

set_option maxHeartbeats 4800000 in
theorem msound_body (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore_x, mbefore_q, mbefore_b]
  rw [show (mdat V c).owesAt () t.succ = (mdat V c).owesAt () t.castSucc from rfl]
  rw [show (mdat V c).Φ t.succ = mPhi V c (t.val + 1) t.isLt from rfl, mPhi_succ]
  have hN : t.val < 128 := lt_of_lt_of_eq t.isLt (show cfg1.N = 128 from N_1)
  by_cases h0 : t.val % 4 = 0
  · by_cases h1 : t.val % 4 = 3
    · exfalso; omega
    · have hc0 : mfirst (grid1.coords t) := (hmfirst t).mpr h0
      have hc1 : ¬mlast (grid1.coords t) := fun h => h1 ((hmlast t).mp h)
      rw [show (mdat V c).leavesExact 0 t = owns (c : Thread nD τ) (mm_x t) fullShare ((mdat V c).after 0 t) from by
        unfold Dat.leavesExact; rw [mlive_x t], mafter_x]
      rw [show (mdat V c).leavesExact 1 t = owns (c : Thread nD τ) (mm_q t) fullShare ((mdat V c).after 1 t) from by
        unfold Dat.leavesExact; rw [mlive_q t], mafter_q]
      rw [show (mdat V c).leavesExact 2 t = owns (c : Thread nD τ) (mm_b t) fullShare ((mdat V c).after 2 t) from by
        unfold Dat.leavesExact; rw [mlive_b t], mafter_b]
      rw [Dat.leavesExact_idle (mdat V c) 3 t (midle_out t hc1) (mnoflush_out t hc1)]
      rw [moutsAt_first V c t h0 h1]
      unfold maccFirst; (try dsimp only)
      by_cases hz : t.val = 0
      · rw [mPhi_castSucc V c t, mPhi_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩⟩
        iapply ((mrunFirst c (grid1.coords t) _ _ _ _ _ _ _ _ _ _ hc0 hc1 (mblk V c 0 t) (mblk V c 1 t) (mblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (mscFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [mPhi_castSucc V c t, mPhi_pos V c _ _ hz]
        iintro ⟨⟨⟨Ha, Hb, Hc, Hd, HS0⟩, Hg⟩, Ho, ⟨%d0, H0⟩, ⟨%d1, H1⟩, ⟨%d2, H2⟩, ⟨%d3, H3⟩⟩
        iapply ((mrunFirst c (grid1.coords t) _ _ _ _ _ _ _ _ _ _ hc0 hc1 (mblk V c 0 t) (mblk V c 1 t) (mblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (mscFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    have hc0 : ¬mfirst (grid1.coords t) := fun h => h0 ((hmfirst t).mp h)
    by_cases h1 : t.val % 4 = 3
    · have hc1 : mlast (grid1.coords t) := (hmlast t).mpr h1
      rw [show (mdat V c).leavesExact 0 t = owns (c : Thread nD τ) (mm_x t) fullShare ((mdat V c).after 0 t) from by
        unfold Dat.leavesExact; rw [mlive_x t], mafter_x]
      rw [show (mdat V c).leavesExact 1 t = owns (c : Thread nD τ) (mm_q t) fullShare ((mdat V c).after 1 t) from by
        unfold Dat.leavesExact; rw [mlive_q t], mafter_q]
      rw [show (mdat V c).leavesExact 2 t = owns (c : Thread nD τ) (mm_b t) fullShare ((mdat V c).after 2 t) from by
        unfold Dat.leavesExact; rw [mlive_b t], mafter_b]
      rw [show (mdat V c).leavesExact 3 t = owns (c : Thread nD τ) (mm_o t) fullShare ((mdat V c).after 3 t) from by
        unfold Dat.leavesExact; rw [mlive_out t hc1], mafter_out]
      rw [moutsAt_last V c t h0 h1]
      unfold moutLast maccLast; (try dsimp only)
      rw [mPhi_castSucc V c t, mPhi_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((mrunLast c (grid1.coords t) _ _ _ _ _ _ _ _ _ _ hc0 hc1 (mblk V c 0 t) (mblk V c 1 t) (mblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (mscLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (mocLast c _ _ _ _ _ _ _ _ _ _ _ _ _ _ _ _ _)
    · have hc1 : ¬mlast (grid1.coords t) := fun h => h1 ((hmlast t).mp h)
      rw [show (mdat V c).leavesExact 0 t = owns (c : Thread nD τ) (mm_x t) fullShare ((mdat V c).after 0 t) from by
        unfold Dat.leavesExact; rw [mlive_x t], mafter_x]
      rw [show (mdat V c).leavesExact 1 t = owns (c : Thread nD τ) (mm_q t) fullShare ((mdat V c).after 1 t) from by
        unfold Dat.leavesExact; rw [mlive_q t], mafter_q]
      rw [show (mdat V c).leavesExact 2 t = owns (c : Thread nD τ) (mm_b t) fullShare ((mdat V c).after 2 t) from by
        unfold Dat.leavesExact; rw [mlive_b t], mafter_b]
      rw [Dat.leavesExact_idle (mdat V c) 3 t (midle_out t hc1) (mnoflush_out t hc1)]
      rw [moutsAt_mid V c t h0 h1]
      unfold maccMid; (try dsimp only)
      rw [mPhi_castSucc V c t, mPhi_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((mrunMid c (grid1.coords t) _ _ _ _ _ _ _ _ _ _ hc0 hc1 (mblk V c 0 t) (mblk V c 1 t) (mblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (mscMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem mbody_obligation (c : Dev nD) : BodyObligation (mdat (F := F) V c) (defs₀ (F := F)) Variants.none () Set.univ := fun t => by
  rw [bigSep_W1, bigSep_W1]
  exact msound_body V c t

/-- What the launch hands the region is the invariant before the first point. -/
theorem mhin (c : Dev nD) : Pipeline.ΦA spec1 c ⊢ (mdat V c).Φ 0 := by
  rw [show (mdat V c).Φ 0 = mPhi V c 0 (Nat.zero_le _) from rfl, mPhi_zero V c 0 _ rfl]
  try exact Idealize.SL.BI.Entails.refl _

/-- After the last point the invariant gives the standing one back: the accumulator's contents are forgotten. -/
theorem mhout (c : Dev nD) : (mdat V c).Φ (Fin.last cfg1.N) ⊢ Pipeline.ΦA spec1 c := by
  have hne : (Fin.last cfg1.N).val ≠ 0 := by rw [Fin.val_last]; have : cfg1.N = 128 := N_1; omega
  rw [show (mdat V c).Φ (Fin.last cfg1.N) = mPhi V c (Fin.last cfg1.N).val (Nat.le_of_lt_succ (Fin.last cfg1.N).isLt) from rfl, mPhi_pos V c _ _ hne, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end

end Cert.KernelIdeal.Frame

end
-- ==== Proof.Run.lean ====
/-
  The whole program's run: the quantisation launch, two reshapes on the host, the matmul launch, one reshape on the host.
  The contents of every buffer at each boundary between these four items are a fold from the launch memory: a launch
  replaces its windows' arrays by what its write-backs leave, a host stretch applies its operations. Each launch is
  entered from the boundary before it and left at the one after it; the result is that every weakly fair execution
  terminates with every buffer at the last boundary's contents.
-/
import proofs.«155224_j74474732912767_1_alg».proof.Proof.QuantBody
import proofs.«155224_j74474732912767_1_alg».proof.Proof.MatmulBody

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
abbrev V0r : (c : Dev nD) → (b : Ref sig .tc) → Buf (Elt F) ((c : Thread nD τ).loc b) := fun c b => W0 m c b
/-- After the quantisation launch: its arrays at what its write-backs leave, every other buffer as before. -/
def W1 (c : Dev nD) : Valuation τ sig (Elt F) :=
  Pipeline.withArrays spec0 c (W0 m c) fun w => (qdat (V0r m) c).arrAt w cfg0.N
theorem W1_arr (c : Dev nD) (w : Fin cfg0.W) :
    W1 m c (Proc.devRef .tc (Pipeline.arrRef spec0 w)) = (qdat (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (qdat (V0r m) c).arrAt w cfg0.N = (fun b : Ref sig .tc => W1 m c b) (Pipeline.arrRef spec0 w) :=
  (W1_arr m c w).symm
theorem hrest0 (c : Dev nD) : ∀ b, b ∉ Finset.univ.image (Pipeline.arrRef spec0) → (fun b : Ref sig .tc => W1 m c b) b = V0r m c b :=
  fun b hb => W1_of_ne m c b fun w e => hb (Finset.mem_image.mpr ⟨w, Finset.mem_univ _, e⟩)
/-- After the two reshapes. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the matmul launch. -/
def W3 (c : Dev nD) : Valuation τ sig (Elt F) :=
  Pipeline.withArrays spec1 c (W2 m c) fun w => (mdat (V2r m) c).arrAt w cfg1.N
theorem W3_arr (c : Dev nD) (w : Fin cfg1.W) :
    W3 m c (Proc.devRef .tc (Pipeline.arrRef spec1 w)) = (mdat (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (mdat (V2r m) c).arrAt w cfg1.N = (fun b : Ref sig .tc => W3 m c b) (Pipeline.arrRef spec1 w) :=
  (W3_arr m c w).symm
theorem hrest1 (c : Dev nD) : ∀ b, b ∉ Finset.univ.image (Pipeline.arrRef spec1) → (fun b : Ref sig .tc => W3 m c b) b = V2r m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The proof data family, the riding state, the host stretches -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => qdat (V0r m) c
  | ⟨1, _⟩ => fun c => mdat (V2r m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two launches as items of the run -/

set_option backward.isDefEq.respectTransparency.types false in
/-- The quantisation launch, entered from the launch memory and left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qbody_obligation (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul launch, entered from `W2` and left at `W3`; its accumulator starts at anything and is forgotten at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (mhin (V2r m) c)
    unfold Pipeline.ΦA
    iintro ⟨Hp, -, Hr⟩
    isplitl [Hr]; · iexact Hr
    iexact Hp
  hout c := by
    rw [Pipeline.ownSems0_none]
    refine (mhout (V2r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (fun b => W3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .host (hseg hostOps2 hostOps2_sub hostOps2_fresh' (W3 m)) ]
theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W4 m c) ∗ ∃ r, prngReg c r)

set_option backward.isDefEq.respectTransparency.types false in
/-- From any memory with zero counters every weakly fair execution terminates, nothing faulting, with every unscoped
    buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Frame

end
-- ==== Proof.Frames.lean ====
/-
  What the run's last boundary holds at the buffers the claims speak of: each argument array is as launched (no host
  operation writes one and no launch writes one back), and the result is the matmul launch's output array reshaped,
  that launch having read the reshaped x, the quantisation launch's output array and the reshaped bias.
-/
import proofs.«155224_j74474732912767_1_alg».proof.Proof.Run

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W4_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

theorem W4_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((qdat (V0r m) c).arrAt_in 0 rfl _).trans (qA_eq (V0r m) c 0))
    _ = m ((c : Thread nD τ).loc main_arg1) := rfl

theorem W4_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- The frame: every weakly fair execution terminates, nothing faulting, the three argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg0 m c),
     (h c _ (mem_uc main_arg1 (by decide))).trans (W4_arg1 m c),
     (h c _ (mem_uc main_arg2 (by decide))).trans (W4_arg2 m c)⟩) (run_all m ρ)

/-! ## The result and what the matmul launch read -/

/-- The x rows the matmul launch reads are the reshaped x. -/
theorem V2r_x (c : Dev nD) : V2r m c main_v1 = shapeCast S8192x4096 (m ((c : Thread nD τ).loc main_arg0)) shapeCasts_S4x2048x4096_S8192x4096 := by
  show StableHlo.after hostOps1 (W1 m c) (Proc.devRef .tc main_v1) = _
  after_results
  exact congrArg (fun v => shapeCast S8192x4096 v shapeCasts_S4x2048x4096_S8192x4096) ((W1_of_ne m c main_arg0 (by decide)).trans rfl)

/-- The bias row it reads is the reshaped bias. -/
theorem V2r_b (c : Dev nD) : V2r m c main_v2 = shapeCast S1x4096 (m ((c : Thread nD τ).loc main_arg2)) shapeCasts_S4096_S1x4096 := by
  show StableHlo.after hostOps1 (W1 m c) (Proc.devRef .tc main_v2) = _
  after_results
  exact congrArg (fun v => shapeCast S1x4096 v shapeCasts_S4096_S1x4096) ((W1_of_ne m c main_arg2 (by decide)).trans rfl)

/-- The weights it reads are the quantisation launch's output array. -/
theorem V2r_q (c : Dev nD) : V2r m c main_v0 = (qdat (V0r m) c).arrAt 1 cfg0.N :=
  (StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_arr m c 1)

/-- The weights the quantisation launch reads are the weight argument. -/
theorem V0r_w (c : Dev nD) : V0r m c main_arg1 = m ((c : Thread nD τ).loc main_arg1) := rfl

/-- The result buffer at the end is the matmul launch's output array, reshaped. -/
theorem W4_result (c : Dev nD) : W4 m c (Proc.devRef .tc main_v4) = shapeCast S4x2048x4096 ((mdat (V2r m) c).arrAt 3 cfg1.N) shapeCasts_S8192x4096_S4x2048x4096 := by
  show StableHlo.after hostOps2 (W3 m c) (Proc.devRef .tc main_v4) = _
  after_results
  exact congrArg (fun v => shapeCast S4x2048x4096 v shapeCasts_S8192x4096_S4x2048x4096) (W3_arr m c 3)

/-- The run with its result named. -/
theorem run_result (ρ : Dev nD → PrngReg) : θ_run defs (onTc (τ := τ) (main (F := F))) ⟨m, fun _ => 0, ρ⟩ (fun r => ∀ c : Dev nD,
      r.2.mem ((c.tc : Thread nD τ).loc main_v4) = shapeCast S4x2048x4096 ((mdat (V2r m) c).arrAt 3 cfg1.N) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_result m c),
     (h c _ (mem_uc main_arg0 (by decide))).trans (W4_arg0 m c),
     (h c _ (mem_uc main_arg1 (by decide))).trans (W4_arg1 m c),
     (h c _ (mem_uc main_arg2 (by decide))).trans (W4_arg2 m c)⟩) (run_all m ρ)

end Cert.KernelIdeal.Frame

end
-- ==== Proof.Spec.lean ====
/-
  What both programs compute, as functions of the three argument arrays over the extended reals.
  A weight row's threshold is 0.7f times the mean of its absolute values; a weight becomes 1 above the threshold, -1 below
  its negation and 0 between; the result is x · qᵀ + bias with q those ternary weights.
-/
import Idealize.ShloMosaic.PureOps.Ideal
import Idealize.ShloMosaic.Lib.ValueIdx

noncomputable section

namespace Cert.Spec

open Idealize.ShloMosaic Idealize.ShloMosaic.ValueIdx

abbrev SW : Shape := ⟨2, ![4096, 4096]⟩
abbrev SX3 : Shape := ⟨3, ![4, 2048, 4096]⟩
abbrev SX2 : Shape := ⟨2, ![8192, 4096]⟩
abbrev SB1 : Shape := ⟨1, ![4096]⟩
abbrev SB2 : Shape := ⟨2, ![1, 4096]⟩

/-- The mean of the absolute values of weight row `o`: the sum from the zero word, divided by 4096. -/
def meanAbs (w : SW.Idx → EReal) (o : Fin 4096) : EReal :=
  Ideal.div (Ideal.ofBits .f32 0x00000000#32 + ∑ d : Fin 4096, max (w (ix2 o d)) (-(w (ix2 o d)))) (Ideal.ofBits .f32 0x45800000#32)

/-- Row `o`'s threshold: the single-precision literal nearest 0.7 times the row's mean absolute value. -/
def thresh (w : SW.Idx → EReal) (o : Fin 4096) : EReal :=
  Ideal.ofBits .f32 0x3F333333#32 * meanAbs w o

/-- The ternary value of weight `(o, d)`. -/
def tern (w : SW.Idx → EReal) (o d : Fin 4096) : EReal :=
  Scalar.select (Ideal.cmp .ogt (w (ix2 o d)) (thresh w o)) (Ideal.ofBits .f32 0x3F800000#32)
    (Scalar.select (Ideal.cmp .olt (w (ix2 o d)) (-(thresh w o))) (Ideal.ofBits .f32 0xBF800000#32) (Ideal.ofBits .f32 0x00000000#32))

/-- The ternary weights as an array. -/
def qW (w : SW.Idx → EReal) : SW.Idx → EReal :=
  fun i => tern w ⟨(i 0).val, (i 0).isLt⟩ ⟨(i 1).val, (i 1).isLt⟩

theorem qW_ix2 (w : SW.Idx → EReal) (o d : Fin 4096) : qW w (ix2 o d) = tern w o d := rfl

/-- A linear layer over flattened rows: row `r` of `x2` against row `o` of `q`, plus the bias row's entry `o`. -/
def lin2 (x2 : SX2.Idx → EReal) (q : SW.Idx → EReal) (b2 : SB2.Idx → EReal) : SX2.Idx → EReal :=
  fun i => (∑ d : Fin 4096, x2 (ix2 (⟨(i 0).val, (i 0).isLt⟩ : Fin 8192) d) * q (ix2 (⟨(i 1).val, (i 1).isLt⟩ : Fin 4096) d))
    + b2 (ix2 (0 : Fin 1) (⟨(i 1).val, (i 1).isLt⟩ : Fin 4096))

theorem lin2_ix2 (x2 : SX2.Idx → EReal) (q : SW.Idx → EReal) (b2 : SB2.Idx → EReal) (r : Fin 8192) (o : Fin 4096) :
    lin2 x2 q b2 (ix2 r o) = (∑ d : Fin 4096, x2 (ix2 r d) * q (ix2 o d)) + b2 (ix2 (0 : Fin 1) o) := rfl

/-- The whole result: entry `(b, s, o)` is the sum over `d` of `x (b, s, d)` times the ternary weight `(o, d)`, plus `bias o`. -/
def G (x : SX3.Idx → EReal) (w : SW.Idx → EReal) (bias : SB1.Idx → EReal) : SX3.Idx → EReal :=
  fun i => (∑ d : Fin 4096, x (ix3 (⟨(i 0).val, (i 0).isLt⟩ : Fin 4) (⟨(i 1).val, (i 1).isLt⟩ : Fin 2048) d)
      * tern w ⟨(i 2).val, (i 2).isLt⟩ d)
    + bias (ix1 (⟨(i 2).val, (i 2).isLt⟩ : Fin 4096))

theorem G_ix3 (x : SX3.Idx → EReal) (w : SW.Idx → EReal) (bias : SB1.Idx → EReal) (b : Fin 4) (s : Fin 2048) (o : Fin 4096) :
    G x w bias (ix3 b s o) = (∑ d : Fin 4096, x (ix3 b s d) * tern w o d) + bias (ix1 o) := rfl

end Cert.Spec

end
-- ==== Proof.QuantValue.lean ====
/-
  What the weight-quantisation launch leaves in its output array, over the extended reals: the ternary weights of the
  weight matrix it found. First the body's stored value at an entry (p, q) of a block: the row sums of absolute values,
  the division by 4096.0, the product with 0.7f, the spread along the row and the two comparisons give the ternary value
  of entry q of the weight row that row p of the block is; 0 - thr is -thr. Then the blocks: point t reads and writes
  rows 256 t … 256 t + 255, whole rows, so what it writes back is block t of the ternary weights, and row r of the array is
  in the block of point r / 256; the sixteen blocks cover the array.
-/
import proofs.«155224_j74474732912767_1_alg».proof.Proof.QuantBody
import proofs.«155224_j74474732912767_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QuantValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Frame

/-- The sum along a row of a 256×4096 block, read at row `p`: the sum over the row's 4096 entries. -/
theorem rowsum_at (v1 : FVec Ideal S256x4096 .f32) (p : Fin 256) :
    multiReduction (F := Ideal) .add [1] S256 v1 0x00000000#32 reduces_S256x4096_S256 (.inl rfl) rfl (ix1 p)
      = ∑ d : Fin 4096, v1 (ix2 p d) := by
  refine (Ideal.multiReduction_add_single v1 0x00000000#32 reduces_S256x4096_S256 (.inl rfl) rfl (ix1 p)).trans ?_
  show ∑ d : Fin 4096, v1 (reduces_S256x4096_S256.lift (ix1 p) d) = _
  refine Finset.sum_congr rfl fun d _ => congrArg v1 ?_
  funext a; apply Fin.ext
  match a with
  | ⟨0, _⟩ => rfl
  | ⟨1, _⟩ => rfl

/-- A vector of 256 entries viewed as a column: entry `(p, 0)` of the column is entry `p` of the vector. -/
theorem col_cast_at {α : Type} (v : S256.Idx → α) (p : Fin 256) :
    shapeCast S256x1 v shapeCasts_S256_S256x1 (ix2 p (0 : Fin 1)) = v (ix1 p) := by
  refine shapeCast_apply v shapeCasts_S256_S256x1 _ _ ?_
  rw [Shape.rowMajor_val_one, Shape.rowMajor_val_two]
  show p.val = p.val * 1 + 0
  omega

/-- A column spread along the rows: entry `(p, q)` of the spread is entry `(p, 0)` of the column. -/
theorem col_bcast_at {α : Type} (v : S256x1.Idx → α) (p : Fin 256) (q : Fin 4096) :
    broadcastTo S256x4096 v broadcasts_S256x1_S256x4096 (ix2 p q) = v (ix2 p (0 : Fin 1)) := by
  refine broadcastTo_apply v broadcasts_S256x1_S256x4096 _ _ fun a => ?_
  match a with
  | ⟨0, _⟩ => rfl
  | ⟨1, _⟩ => rfl

/-- The column of row thresholds the body computes from a block: the 0.7f literal times each row's sum of absolute
    values (from the zero word) divided by the 4096.0 literal. -/
def thrCol (v0 : Vec Ideal S256x4096 .f32) : FVec Ideal S256x1 .f32 :=
  mulf (broadcast S256x1 (Scalar.ofBits (F := Ideal) .f32 0x3F333333#32))
    (divf (shapeCast S256x1 (multiReduction (F := Ideal) .add [1] S256 (absf v0) 0x00000000#32 reduces_S256x4096_S256 (.inl rfl) rfl) shapeCasts_S256_S256x1)
      (broadcast S256x1 (Scalar.ofBits (F := Ideal) .f32 0x45800000#32)))

/-- The body's arithmetic as comparisons of the block against the spread threshold column and its negation. -/
theorem pay_eq (v0 : Vec Ideal S256x4096 .f32) :
    k0_pay1 (F := Ideal) v0
      = truncf .bf16 (select (cmpf .ogt v0 (broadcastTo S256x4096 (thrCol v0) broadcasts_S256x1_S256x4096))
          (broadcast S256x4096 (Scalar.ofBits (F := Ideal) .f32 0x3F800000#32))
          (select (cmpf .olt v0 (broadcastTo S256x4096 (subf (broadcast S256x1 (Scalar.ofBits (F := Ideal) .f32 0x00000000#32)) (thrCol v0)) broadcasts_S256x1_S256x4096))
            (broadcast S256x4096 (Scalar.ofBits (F := Ideal) .f32 0xBF800000#32))
            (broadcast S256x4096 (Scalar.ofBits (F := Ideal) .f32 0x00000000#32)))) bitsLt_bf16_f32 := rfl

/-- Entry `(p, 0)` of the threshold column is the threshold of the weight row that row `p` of the block is. -/
theorem thrCol_at (v0 : Vec Ideal S256x4096 .f32) (w : Spec.SW.Idx → EReal) (p : Fin 256) (o : Fin 4096)
    (hrow : ∀ d : Fin 4096, v0 (ix2 p d) = w (ix2 o d)) :
    thrCol v0 (ix2 p (0 : Fin 1)) = Spec.thresh w o := by
  show Ideal.ofBits .f32 0x3F333333#32
      * Ideal.div (shapeCast S256x1 (multiReduction (F := Ideal) .add [1] S256 (absf v0) 0x00000000#32 reduces_S256x4096_S256 (.inl rfl) rfl) shapeCasts_S256_S256x1 (ix2 p (0 : Fin 1)))
          (Ideal.ofBits .f32 0x45800000#32) = _
  rw [col_cast_at, rowsum_at]
  unfold Spec.thresh Spec.meanAbs
  rw [Ideal.ofBits_zero_f32, zero_add]
  refine congrArg (fun s => Ideal.ofBits .f32 0x3F333333#32 * Ideal.div s (Ideal.ofBits .f32 0x45800000#32)) ?_
  refine Finset.sum_congr rfl fun d _ => ?_
  show max (v0 (ix2 p d)) (-(v0 (ix2 p d))) = _
  rw [hrow d]

/-- THE PAYLOAD AT AN INDEX: entry `(p, q)` of what the body stores is the ternary value of entry `q` of the weight row
    that row `p` of the block is. -/
theorem pay_at (v0 : Vec Ideal S256x4096 .f32) (w : Spec.SW.Idx → EReal) (p : Fin 256) (o q : Fin 4096)
    (hrow : ∀ d : Fin 4096, v0 (ix2 p d) = w (ix2 o d)) :
    k0_pay1 (F := Ideal) v0 (ix2 p q) = Spec.tern w o q := by
  rw [pay_eq]
  show Scalar.select (Ideal.cmp .ogt (v0 (ix2 p q)) (broadcastTo S256x4096 (thrCol v0) broadcasts_S256x1_S256x4096 (ix2 p q)))
      (Ideal.ofBits .f32 0x3F800000#32)
      (Scalar.select (Ideal.cmp .olt (v0 (ix2 p q))
          (broadcastTo S256x4096 (subf (broadcast S256x1 (Scalar.ofBits (F := Ideal) .f32 0x00000000#32)) (thrCol v0)) broadcasts_S256x1_S256x4096 (ix2 p q)))
        (Ideal.ofBits .f32 0xBF800000#32) (Ideal.ofBits .f32 0x00000000#32)) = _
  rw [col_bcast_at, col_bcast_at]
  show Scalar.select (Ideal.cmp .ogt (v0 (ix2 p q)) (thrCol v0 (ix2 p (0 : Fin 1))))
      (Ideal.ofBits .f32 0x3F800000#32)
      (Scalar.select (Ideal.cmp .olt (v0 (ix2 p q)) (Ideal.ofBits .f32 0x00000000#32 - thrCol v0 (ix2 p (0 : Fin 1))))
        (Ideal.ofBits .f32 0xBF800000#32) (Ideal.ofBits .f32 0x00000000#32)) = _
  rw [thrCol_at v0 w p o hrow, hrow q]
  unfold Spec.tern
  have hneg : Ideal.ofBits .f32 0x00000000#32 - Spec.thresh w o = -(Spec.thresh w o) := by
    rw [Ideal.ofBits_zero_f32, zero_sub]
  rw [hneg]

section
-- the core's buffer contents when the launch is entered
variable (V : (c : Dev nD) → (b : Ref sig .tc) → Buf (Elt Ideal) ((c : Thread nD τ).loc b))

theorem origin_zero : (![0, 0] : Fin 2 → Nat) = fun _ => 0 := funext fun a => by fin_cases a <;> rfl

/-- The weight matrix as the launch finds it on core `c`. -/
abbrev warr (c : Dev nD) : Spec.SW.Idx → EReal := V c main_arg1

/-- The printed index maps, decided over the grid: at point `t` both windows sit at block row `t`, block column 0. -/
theorem block_row_at : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the weights' block at point `t` is row `256 t + p` of the weight matrix. -/
theorem wblk_row (c : Dev nD) (t : Fin cfg0.N) (p : Fin 256) (o d : Fin 4096) (ho : o.val = t.val * 256 + p.val) :
    (qblk (F := Ideal) V c 0 t : Vec Ideal S256x4096 .f32) (ix2 p d) = warr V c (ix2 o d) := by
  obtain ⟨e0, e1, -, -⟩ := block_row_at t
  show V c main_arg1 (((cfg0.win 0).blk t).view.emb (ix2 p d)) = V c main_arg1 (ix2 o d)
  refine congrArg (V c main_arg1) ?_
  funext a; apply Fin.ext
  match a with
  | ⟨0, _⟩ => show win0_0.index t (0 : Fin 2) * 256 + 1 * p.val = o.val; omega
  | ⟨1, _⟩ => show win0_0.index t (1 : Fin 2) * 4096 + 1 * d.val = d.val; omega

/-- WHAT POINT `t` WRITES BACK is block `t` of the ternary weights. -/
theorem quant_flushed (c : Dev nD) (t : Fin cfg0.N) :
    (qdat (F := Ideal) V c).flushed 1 t = ((cfg0.win 1).blk t).view.read (Elt Ideal) (Spec.qW (warr V c)) := by
  show (cfg0.win 1).cut (grid0.coords t) ((qdat (F := Ideal) V c).after 1 t) = _
  rw [qafter_out]
  unfold qout
  rw [View.canon_unit_zero origin_zero]
  simp only [View.ld_unit_zero (S := S256x4096) origin_zero]
  obtain ⟨-, -, e2, e3⟩ := block_row_at t
  have ht : t.val < 16 := lt_of_lt_of_eq t.isLt N_0
  funext j
  have hj0 : (j 0).val < 256 := (j 0).isLt
  have hj1 : (j 1).val < 4096 := (j 1).isLt
  show k0_pay1 (F := Ideal) (qblk (F := Ideal) V c 0 t) j = Spec.qW (warr V c) (((cfg0.win 1).blk t).view.emb j)
  have hj : j = ix2 (⟨(j 0).val, hj0⟩ : Fin 256) (⟨(j 1).val, hj1⟩ : Fin 4096) := by
    funext a
    match a with
    | ⟨0, _⟩ => rfl
    | ⟨1, _⟩ => rfl
  have hi : ((cfg0.win 1).blk t).view.emb j = ix2 (⟨t.val * 256 + (j 0).val, by omega⟩ : Fin 4096) (⟨(j 1).val, hj1⟩ : Fin 4096) := by
    funext a; apply Fin.ext
    match a with
    | ⟨0, _⟩ => show win0_1.index t (0 : Fin 2) * 256 + 1 * (j 0).val = t.val * 256 + (j 0).val; omega
    | ⟨1, _⟩ => show win0_1.index t (1 : Fin 2) * 4096 + 1 * (j 1).val = (j 1).val; omega
  rw [hi, Spec.qW_ix2]
  refine (congrArg (k0_pay1 (F := Ideal) (qblk (F := Ideal) V c 0 t)) hj).trans ?_
  exact pay_at (qblk (F := Ideal) V c 0 t) (warr V c) ⟨(j 0).val, hj0⟩ ⟨t.val * 256 + (j 0).val, by omega⟩ ⟨(j 1).val, hj1⟩
    (fun d => wblk_row V c t ⟨(j 0).val, hj0⟩ ⟨t.val * 256 + (j 0).val, by omega⟩ d rfl)

/-- An index of the array is in point `t`'s block iff each coordinate is in the block's range on its axis. -/
theorem mem_out_block (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every row of the array is in some point's block: row `r` in the block of point `r / 256`. -/
theorem rows_covered (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  refine ⟨⟨(i 0).val / 256, by rw [hN]; omega⟩, flush0_1 _, ?_⟩
  rw [mem_out_block]
  obtain ⟨-, -, e2, e3⟩ := block_row_at ⟨(i 0).val / 256, by rw [hN]; omega⟩
  intro a
  match a with
  | ⟨0, _⟩ =>
    show win0_1.index ⟨(i 0).val / 256, _⟩ (0 : Fin 2) * 256 ≤ (i 0).val ∧ (i 0).val < win0_1.index ⟨(i 0).val / 256, _⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, _⟩ (1 : Fin 2) * 4096 ≤ (i 1).val ∧ (i 1).val < win0_1.index ⟨(i 0).val / 256, _⟩ (1 : Fin 2) * 4096 + 4096
    rw [e3]; omega

/-- THE ARRAY after the launch: the ternary weights of the weight matrix as the launch found it. -/
theorem quant_final (c : Dev nD) :
    (qdat (F := Ideal) V c).arrAt 1 cfg0.N = Spec.qW (V c main_arg1) :=
  (qdat (F := Ideal) V c).arrAt_eq_of_cover 1 (Spec.qW (warr V c)) (fun t _ => quant_flushed V c t) rows_covered

end

end Cert.KernelIdeal.QuantValue

end
-- ==== Proof.MatmulPay.lean ====
/-
  The matmul body's three stored values, read at one entry, and what each of the three runs leaves as those values.
-/
import proofs.«155224_j74474732912767_1_alg».proof.Proof.MatmulBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatmulValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Frame Idealize.ShloMosaic.ValueIdx

variable {F : FTy → Type} [FloatOps F]

local notation "𝕄" => MT nD τ sig Unit (Elt F) ℕ (UR sig nD τ) ℕ

/-- The origin of a rank-two rectangle is the all-zero offset. -/
theorem origin_eq_zero : (![0, 0] : Fin 2 → Nat) = fun _ => 0 := funext fun a => by fin_cases a <;> rfl

/-- The first step leaves the step's product added to the cleared accumulator. -/
theorem accFirst_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : mfirst i) (hc1 : ¬mlast i)
    (x0 : Vec F S1024x1024 .f32) (x1 : Vec F S1024x1024 .bf16) (x2 : Vec F S1x1024 .f32) :
    maccFirst (F := F) c i arg3 harg3 arg4 harg4 arg5 harg5 arg6 harg6 arg7 harg7 hc0 hc1 x0 x1 x2 = k1_pay2 x0 x1 (k1_pay1 (F := F)) := by
  unfold maccFirst
  rw [View.read_writes_eq_canon _ _ _ (mscFirst c i arg3 harg3 arg4 harg4 arg5 harg5 arg6 harg6 arg7 harg7 hc0 hc1 x0 x1 x2)]
  unfold mrunFirst
  dsimp only
  sl_unfold_words
  rw [View.canon_cons_unit_zero (S := S1024x1024) origin_eq_zero, View.readCov_unit_zero (S := S1024x1024) _ origin_eq_zero]
  simp only [View.readAt_eq_ld, harg3.read_unread, harg4.read_unread, View.ld_unit_zero (S := S1024x1024) origin_eq_zero]
/-- A middle step leaves the step's product added to what the step before left. -/
theorem accMid_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : ¬mlast i)
    (x0 : Vec F S1024x1024 .f32) (x1 : Vec F S1024x1024 .bf16) (x2 : Vec F S1x1024 .f32) (xs : Vec F S1024x1024 .f32) :
    maccMid (F := F) c i arg3 harg3 arg4 harg4 arg5 harg5 arg6 harg6 arg7 harg7 hc0 hc1 x0 x1 x2 xs = k1_pay2 x0 x1 xs := by
  unfold maccMid
  rw [View.read_writes_eq_canon _ _ _ (mscMid c i arg3 harg3 arg4 harg4 arg5 harg5 arg6 harg6 arg7 harg7 hc0 hc1 x0 x1 x2 xs)]
  unfold mrunMid
  dsimp only
  sl_unfold_words
  rw [View.canon_unit_zero origin_eq_zero]
  simp only [View.readAt_eq_ld, harg3.read_unread, harg4.read_unread, harg7.read_unread, View.ld_unit_zero (S := S1024x1024) origin_eq_zero]
/-- The last step leaves the same in the accumulator, -/
theorem accLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) :
    maccLast (F := F) c i arg3 harg3 arg4 harg4 arg5 harg5 arg6 harg6 arg7 harg7 hc0 hc1 x0 x1 x2 xs = k1_pay2 x0 x1 xs := by
  unfold maccLast
  rw [View.read_writes_eq_canon _ _ _ (mscLast c i arg3 harg3 arg4 harg4 arg5 harg5 arg6 harg6 arg7 harg7 hc0 hc1 x0 x1 x2 xs)]
  unfold mrunLast
  dsimp only
  sl_unfold_words
  rw [View.canon_unit_zero origin_eq_zero]
  simp only [View.readAt_eq_ld, harg3.read_unread, harg4.read_unread, harg7.read_unread, View.ld_unit_zero (S := S1024x1024) origin_eq_zero]
/-- and the accumulator plus the bias row in the output block. -/
theorem outLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬mfirst i) (hc1 : mlast i)
    (x0 : Vec F S1024x1024 .f32) (x1 : Vec F S1024x1024 .bf16) (x2 : Vec F S1x1024 .f32) (xs : Vec F S1024x1024 .f32) :
    moutLast (F := F) c i arg3 harg3 arg4 harg4 arg5 harg5 arg6 harg6 arg7 harg7 hc0 hc1 x0 x1 x2 xs = k1_pay3 (k1_pay2 x0 x1 xs) x2 := by
  unfold moutLast
  rw [View.read_writes_eq_canon _ _ _ (mocLast c i arg3 harg3 arg4 harg4 arg5 harg5 arg6 harg6 arg7 harg7 hc0 hc1 x0 x1 x2 xs)]
  unfold mrunLast
  dsimp only
  sl_unfold_words
  rw [View.canon_unit_zero origin_eq_zero, View.readCov_unit_zero (S := S1024x1024) _ origin_eq_zero]
  simp only [View.readAt_eq_ld, harg3.read_unread, harg4.read_unread, harg5.read_unread, harg7.read_unread, View.ld_unit_zero (S := S1024x1024) origin_eq_zero, View.ld_unit_zero (S := S1x1024) origin_eq_zero]

/-! ## The step's product at one entry

Both operands of the step's product are contracted along their second axis: the left operand's index at output entry
`(p, q)` and contraction position `kk` is `(p, kk)`, the right operand's is `(q, kk)`. -/

/-- The left operand's row is the output entry's row. -/
theorem dot_lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction position. -/
theorem dot_lhs_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- The right operand's row is the output entry's column. -/
theorem dot_rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction position. -/
theorem dot_rhs_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product into the zero block, at entry `(p, q)`: the inner product of row `p` of the left operand with row `q` of
    the right operand. -/
theorem dot_zero_at (a b : FVec Ideal S1024x1024 .bf16) (p q : Fin 1024) :
    FloatOps.matmul dot_S1024x1024_S1024x1024_S1024x1024_1_1_0_0_n_n none a b (constant S1024x1024 .f32 0x00000000#32) (ix2 p q)
      = ∑ kk : Fin 1024, a (ix2 p kk) * b (ix2 q kk) := by
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun ax => Fin.ext (by
    match ax with
    | ⟨0, _⟩ => exact dot_lhs_row _ _
    | ⟨1, _⟩ => exact (dot_lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun ax => Fin.ext (by
    match ax with
    | ⟨0, _⟩ => exact dot_rhs_row _ _
    | ⟨1, _⟩ => exact (dot_rhs_col _ _).trans hk)
  rw [el, er]

/-- The cleared accumulator's entries are the zero word. -/
theorem pay1_at (p q : Fin 1024) : k1_pay1 (F := Ideal) (ix2 p q) = Ideal.ofBits .f32 0x00000000#32 := by
  unfold k1_pay1
  exact congrFun (shapeCast_self _ shapeCasts_S1024x1024_S1024x1024) (ix2 p q)
/-- One accumulation step at an entry: the entry before plus the inner product of row `p` of the x block with row `q` of the weight block. -/
theorem pay2_at (x0 : Vec Ideal S1024x1024 .f32) (x1 : Vec Ideal S1024x1024 .bf16) (acc : Vec Ideal S1024x1024 .f32) (p q : Fin 1024) :
    k1_pay2 (F := Ideal) x0 x1 acc (ix2 p q) = acc (ix2 p q) + ∑ kk : Fin 1024, x0 (ix2 p kk) * x1 (ix2 q kk) := by
  unfold k1_pay2
  refine (congrFun (shapeCast_self _ shapeCasts_S1024x1024_S1024x1024) (ix2 p q)).trans ?_
  refine (addf_apply acc _ (ix2 p q)).trans ?_
  refine congrArg (acc (ix2 p q) + ·) ?_
  refine (dot_zero_at _ _ p q).trans ?_
  refine Finset.sum_congr rfl fun kk _ => ?_
  exact congr (congrArg HMul.hMul (congrFun (shapeCast_self x0 shapeCasts_S1024x1024_S1024x1024) (ix2 p kk)))
    (congrFun (shapeCast_self x1 shapeCasts_S1024x1024_S1024x1024) (ix2 q kk))
/-- The stored output at an entry: the accumulator's entry plus the bias row's entry of that column. -/
theorem pay3_at (a : Vec Ideal S1024x1024 .f32) (b : Vec Ideal S1x1024 .f32) (p q : Fin 1024) :
    k1_pay3 (F := Ideal) a b (ix2 p q) = a (ix2 p q) + b (ix2 (0 : Fin 1) q) := by
  unfold k1_pay3
  refine (addf_apply a _ (ix2 p q)).trans ?_
  refine congrArg (a (ix2 p q) + ·) ?_
  refine (broadcastTo_1b_ab_apply _ broadcasts_S1x1024_S1024x1024 p q).trans ?_
  exact congrFun (shapeCast_self b shapeCasts_S1x1024_S1x1024) (ix2 (0 : Fin 1) q)

end Cert.KernelIdeal.MatmulValue

end
-- ==== Proof.MatmulValue.lean ====
/-
  What the matmul launch leaves in its output array, over the extended reals: x · wᵀ + bias, with x the 8192×4096 array,
  w the 4096×4096 weights and bias the 1×4096 row the launch finds. The grid's point t = 16 i + 4 j + k reads rows
  1024 i … of x and rows 1024 j … of w over the columns 1024 k …, and the bias columns 1024 j …. Along k the accumulator
  starts from the zero word and gains one step's product per point, so after k = 3 its entry (p, q) is the sum of the
  four runs of 1024 products, which is the whole inner product over 4096 columns (sums in the extended reals regroup
  freely); the last step stores that plus the bias entry into the output block, which is block (i, j) of the array.
  The blocks of the last steps cover the array: entry (r, o) lies in that of i = r / 1024, j = o / 1024.
-/
import proofs.«155224_j74474732912767_1_alg».proof.Proof.MatmulPay
import proofs.«155224_j74474732912767_1_alg».proof.Proof.Spec
import Mathlib.Algebra.BigOperators.Fin
import Mathlib.Logic.Equiv.Fin.Basic

set_option maxRecDepth 16384

noncomputable section

namespace Cert.KernelIdeal.MatmulValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Frame Idealize.ShloMosaic.ValueIdx

/-- The printed index maps, decided over the grid: at point `t = 16 i + 4 j + k` the x window sits at block `(i, k)`, the
    weights' at `(j, k)`, the bias row's at `(0, j)` and the output's at `(i, j)`. -/
theorem block_idx_at : ∀ t : Fin cfg1.N,
    win1_0.index t (0 : Fin 2) = t.val / 16 ∧ win1_0.index t (1 : Fin 2) = t.val % 4
  ∧ win1_1.index t (0 : Fin 2) = t.val / 4 % 4 ∧ win1_1.index t (1 : Fin 2) = t.val % 4
  ∧ win1_2.index t (0 : Fin 2) = 0 ∧ win1_2.index t (1 : Fin 2) = t.val / 4 % 4
  ∧ win1_3.index t (0 : Fin 2) = t.val / 16 ∧ win1_3.index t (1 : Fin 2) = t.val / 4 % 4 :=
  (by decide +kernel : ∀ t : Fin grid1.N, _)

section
variable (V : (c : Dev nD) → (b : Ref sig .tc) → Buf (Elt Ideal) ((c : Thread nD τ).loc b))

/-- The three arrays as the launch finds them on core `c`. -/
abbrev xarr (c : Dev nD) : Spec.SX2.Idx → EReal := V c main_v1
abbrev qarr (c : Dev nD) : Spec.SW.Idx → EReal := V c main_v0
abbrev barr (c : Dev nD) : Spec.SB2.Idx → EReal := V c main_v2

/-- The three input blocks at point `t`. -/
abbrev xb (c : Dev nD) (t : Fin cfg1.N) : Vec Ideal S1024x1024 .f32 := mblk (F := Ideal) V c 0 t
abbrev qb (c : Dev nD) (t : Fin cfg1.N) : Vec Ideal S1024x1024 .bf16 := mblk (F := Ideal) V c 1 t
abbrev bb (c : Dev nD) (t : Fin cfg1.N) : Vec Ideal S1x1024 .f32 := mblk (F := Ideal) V c 2 t

/-- Entry `(p, kk)` of the x block at point `t` is entry `(1024 i + p, 1024 k + kk)` of x. -/
theorem xblk_at (c : Dev nD) (t : Fin cfg1.N) (p kk : Fin 1024) (r : Fin 8192) (d : Fin 4096)
    (hr : r.val = t.val / 16 * 1024 + p.val) (hd : d.val = t.val % 4 * 1024 + kk.val) :
    xb V c t (ix2 p kk) = xarr V c (ix2 r d) := by
  obtain ⟨e0, e1, -, -, -, -, -, -⟩ := block_idx_at t
  show V c main_v1 (((cfg1.win 0).blk t).view.emb (ix2 p kk)) = V c main_v1 (ix2 r d)
  refine congrArg (V c main_v1) ?_
  funext a; apply Fin.ext
  match a with
  | ⟨0, _⟩ => show win1_0.index t (0 : Fin 2) * 1024 + 1 * p.val = r.val; omega
  | ⟨1, _⟩ => show win1_0.index t (1 : Fin 2) * 1024 + 1 * kk.val = d.val; omega

/-- Entry `(q, kk)` of the weights' block at point `t` is entry `(1024 j + q, 1024 k + kk)` of the weights. -/
theorem qblk_at (c : Dev nD) (t : Fin cfg1.N) (q kk : Fin 1024) (o : Fin 4096) (d : Fin 4096)
    (ho : o.val = t.val / 4 % 4 * 1024 + q.val) (hd : d.val = t.val % 4 * 1024 + kk.val) :
    qb V c t (ix2 q kk) = qarr V c (ix2 o d) := by
  obtain ⟨-, -, e0, e1, -, -, -, -⟩ := block_idx_at t
  show V c main_v0 (((cfg1.win 1).blk t).view.emb (ix2 q kk)) = V c main_v0 (ix2 o d)
  refine congrArg (V c main_v0) ?_
  funext a; apply Fin.ext
  match a with
  | ⟨0, _⟩ => show win1_1.index t (0 : Fin 2) * 1024 + 1 * q.val = o.val; omega
  | ⟨1, _⟩ => show win1_1.index t (1 : Fin 2) * 1024 + 1 * kk.val = d.val; omega

/-- Entry `(0, q)` of the bias block at point `t` is entry `(0, 1024 j + q)` of the bias row. -/
theorem bblk_at (c : Dev nD) (t : Fin cfg1.N) (q : Fin 1024) (o : Fin 4096)
    (ho : o.val = t.val / 4 % 4 * 1024 + q.val) :
    bb V c t (ix2 (0 : Fin 1) q) = barr V c (ix2 (0 : Fin 1) o) := by
  obtain ⟨-, -, -, -, e0, e1, -, -⟩ := block_idx_at t
  show V c main_v2 (((cfg1.win 2).blk t).view.emb (ix2 (0 : Fin 1) q)) = V c main_v2 (ix2 (0 : Fin 1) o)
  refine congrArg (V c main_v2) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 1024 + 1 * q.val = o.val; omega

/-- The product of the step at point `t`, at entry `(p, q)`: row `p` of the x block against row `q` of the weight block. -/
def stepSum (c : Dev nD) (t : Fin cfg1.N) (p q : Fin 1024) : EReal :=
  ∑ kk : Fin 1024, xb V c t (ix2 p kk) * qb V c t (ix2 q kk)

/-- At a first step the accumulator is left at the zero word plus the step's product. -/
theorem acc_first (c : Dev nD) (t : Fin cfg1.N) (h0 : t.val % 4 = 0) (p q : Fin 1024) :
    (moutsAt (F := Ideal) V c t.val t.isLt).2 (ix2 p q) = Ideal.ofBits .f32 0x00000000#32 + stepSum V c t p q := by
  have h1 : ¬t.val % 4 = 3 := by omega
  have e := congrArg Prod.snd (moutsAt_first (F := Ideal) V c t h0 h1)
  dsimp only at e
  rw [e, accFirst_eq (F := Ideal) c (grid1.coords t) (mm_x t) (hm_x t) (mm_q t) (hm_q t) (mm_b t) (hm_b t) (mm_o t) (hm_o t) accM (Memref.isWhole_whole _) ((hmfirst t).mpr h0) (fun h => h1 ((hmlast t).mp h)) (mblk V c 0 t) (mblk V c 1 t) (mblk V c 2 t)]
  refine (pay2_at (mblk V c 0 t) (mblk V c 1 t) (k1_pay1 (F := Ideal)) p q).trans ?_
  rw [pay1_at p q]
  rfl

/-- At every later step the accumulator is left at what the step before left plus the step's product. -/
theorem acc_step (c : Dev nD) (t : Fin cfg1.N) (h0 : ¬t.val % 4 = 0) (p q : Fin 1024) :
    (moutsAt (F := Ideal) V c t.val t.isLt).2 (ix2 p q)
      = (moutsAt (F := Ideal) V c (t.val - 1) (Nat.lt_of_le_of_lt (Nat.sub_le _ _) t.isLt)).2 (ix2 p q) + stepSum V c t p q := by
  by_cases h1 : t.val % 4 = 3
  · have e := congrArg Prod.snd (moutsAt_last (F := Ideal) V c t h0 h1)
    dsimp only at e
    rw [e, accLast_eq (F := Ideal) c (grid1.coords t) (mm_x t) (hm_x t) (mm_q t) (hm_q t) (mm_b t) (hm_b t) (mm_o t) (hm_o t) accM (Memref.isWhole_whole _) (fun h => h0 ((hmfirst t).mp h)) ((hmlast t).mpr h1) (mblk V c 0 t) (mblk V c 1 t) (mblk V c 2 t) (moutsAt V c (t.val - 1) (Nat.lt_of_le_of_lt (Nat.sub_le _ _) t.isLt)).2]
    exact pay2_at (mblk V c 0 t) (mblk V c 1 t) _ p q
  · have e := congrArg Prod.snd (moutsAt_mid (F := Ideal) V c t h0 h1)
    dsimp only at e
    rw [e, accMid_eq (F := Ideal) c (grid1.coords t) (mm_x t) (hm_x t) (mm_q t) (hm_q t) (mm_b t) (hm_b t) (mm_o t) (hm_o t) accM (Memref.isWhole_whole _) (fun h => h0 ((hmfirst t).mp h)) (fun h => h1 ((hmlast t).mp h)) (mblk V c 0 t) (mblk V c 1 t) (mblk V c 2 t) (moutsAt V c (t.val - 1) (Nat.lt_of_le_of_lt (Nat.sub_le _ _) t.isLt)).2]
    exact pay2_at (mblk V c 0 t) (mblk V c 1 t) _ p q

/-- At a last step the output block's buffer is left at the accumulator plus the bias row. -/
theorem out_last (c : Dev nD) (t : Fin cfg1.N) (h1 : t.val % 4 = 3) (p q : Fin 1024) :
    (moutsAt (F := Ideal) V c t.val t.isLt).1 (ix2 p q)
      = (moutsAt (F := Ideal) V c t.val t.isLt).2 (ix2 p q) + bb V c t (ix2 (0 : Fin 1) q) := by
  have h0 : ¬t.val % 4 = 0 := by omega
  have e := moutsAt_last (F := Ideal) V c t h0 h1
  have e1 := congrArg Prod.fst e
  have e2 := congrArg Prod.snd e
  dsimp only at e1 e2
  rw [e1, e2, outLast_eq (F := Ideal) c (grid1.coords t) (mm_x t) (hm_x t) (mm_q t) (hm_q t) (mm_b t) (hm_b t) (mm_o t) (hm_o t) accM (Memref.isWhole_whole _) (fun h => h0 ((hmfirst t).mp h)) ((hmlast t).mpr h1) (mblk V c 0 t) (mblk V c 1 t) (mblk V c 2 t) (moutsAt V c (t.val - 1) (Nat.lt_of_le_of_lt (Nat.sub_le _ _) t.isLt)).2,
    accLast_eq (F := Ideal) c (grid1.coords t) (mm_x t) (hm_x t) (mm_q t) (hm_q t) (mm_b t) (hm_b t) (mm_o t) (hm_o t) accM (Memref.isWhole_whole _) (fun h => h0 ((hmfirst t).mp h)) ((hmlast t).mpr h1) (mblk V c 0 t) (mblk V c 1 t) (mblk V c 2 t) (moutsAt V c (t.val - 1) (Nat.lt_of_le_of_lt (Nat.sub_le _ _) t.isLt)).2]
  exact pay3_at _ (mblk V c 2 t) p q

/-- The step's product at point `t`, whose contraction step is `k`, read off the arrays: row `r` of x against row `o` of
    the weights over the columns `1024 k … 1024 k + 1023`. -/
theorem stepSum_eq (c : Dev nD) (t : Fin cfg1.N) (p q : Fin 1024) (r : Fin 8192) (o : Fin 4096) (k : ℕ) (hk : k < 4)
    (hr : r.val = t.val / 16 * 1024 + p.val) (ho : o.val = t.val / 4 % 4 * 1024 + q.val) (hkt : t.val % 4 = k) :
    stepSum V c t p q
      = ∑ kk : Fin 1024, xarr V c (ix2 r (⟨k * 1024 + kk.val, by omega⟩ : Fin 4096)) * qarr V c (ix2 o (⟨k * 1024 + kk.val, by omega⟩ : Fin 4096)) := by
  unfold stepSum
  refine Finset.sum_congr rfl fun kk _ => ?_
  rw [xblk_at V c t p kk r ⟨k * 1024 + kk.val, by omega⟩ hr (by show k * 1024 + kk.val = _; rw [hkt]),
    qblk_at V c t q kk o ⟨k * 1024 + kk.val, by omega⟩ ho (by show k * 1024 + kk.val = _; rw [hkt])]

/-- A sum over 4096 entries is the sum of its four runs of 1024. -/
theorem sum_four_runs (f : Fin 4096 → EReal) :
    ∑ d : Fin 4096, f d
      = (∑ kk : Fin 1024, f ⟨0 * 1024 + kk.val, by omega⟩) + (∑ kk : Fin 1024, f ⟨1 * 1024 + kk.val, by omega⟩)
        + (∑ kk : Fin 1024, f ⟨2 * 1024 + kk.val, by omega⟩) + (∑ kk : Fin 1024, f ⟨3 * 1024 + kk.val, by omega⟩) := by
  have h := (Equiv.sum_comp (finProdFinEquiv (m := 4) (n := 1024)) f).symm
  rw [Fintype.sum_prod_type, Fin.sum_univ_four] at h
  refine h.trans ?_
  refine congrArg₂ (· + ·) (congrArg₂ (· + ·) (congrArg₂ (· + ·) ?_ ?_) ?_) ?_ <;>
    refine Finset.sum_congr rfl fun kk _ => congrArg f (Fin.ext ?_)
  · show kk.val + 1024 * 0 = 0 * 1024 + kk.val; omega
  · show kk.val + 1024 * 1 = 1 * 1024 + kk.val; omega
  · show kk.val + 1024 * 2 = 2 * 1024 + kk.val; omega
  · show kk.val + 1024 * 3 = 3 * 1024 + kk.val; omega

/-- THE STORED OUTPUT AT AN ENTRY: at a last step, entry `(p, q)` of the output block's buffer is the whole inner product of
    row `r` of x with row `o` of the weights, plus the bias entry `o`. -/
theorem out_entry (c : Dev nD) (t : Fin cfg1.N) (h3 : t.val % 4 = 3) (p q : Fin 1024) (r : Fin 8192) (o : Fin 4096)
    (hr : r.val = t.val / 16 * 1024 + p.val) (ho : o.val = t.val / 4 % 4 * 1024 + q.val) :
    (moutsAt (F := Ideal) V c t.val t.isLt).1 (ix2 p q)
      = (∑ d : Fin 4096, xarr V c (ix2 r d) * qarr V c (ix2 o d)) + barr V c (ix2 (0 : Fin 1) o) := by
  have hN : t.val < 128 := lt_of_lt_of_eq t.isLt N_1
  have ht1 : t.val - 1 < cfg1.N := Nat.lt_of_le_of_lt (Nat.sub_le _ _) t.isLt
  have ht2 : t.val - 1 - 1 < cfg1.N := Nat.lt_of_le_of_lt (Nat.sub_le _ _) ht1
  have ht3 : t.val - 1 - 1 - 1 < cfg1.N := Nat.lt_of_le_of_lt (Nat.sub_le _ _) ht2
  have a0 := acc_step V c t (by omega) p q
  have a1 := acc_step V c ⟨t.val - 1, ht1⟩ (by show ¬(t.val - 1) % 4 = 0; omega) p q
  have a2 := acc_step V c ⟨t.val - 1 - 1, ht2⟩ (by show ¬(t.val - 1 - 1) % 4 = 0; omega) p q
  have a3 := acc_first V c ⟨t.val - 1 - 1 - 1, ht3⟩ (by show (t.val - 1 - 1 - 1) % 4 = 0; omega) p q
  dsimp only at a1 a2 a3
  rw [out_last V c t h3 p q, bblk_at V c t q o ho, a0, a1, a2, a3]
  refine congrArg (· + barr V c (ix2 (0 : Fin 1) o)) ?_
  rw [stepSum_eq V c t p q r o 3 (by omega) hr ho h3,
    stepSum_eq V c ⟨t.val - 1, ht1⟩ p q r o 2 (by omega) (by show r.val = (t.val - 1) / 16 * 1024 + p.val; omega) (by show o.val = (t.val - 1) / 4 % 4 * 1024 + q.val; omega) (by show (t.val - 1) % 4 = 2; omega),
    stepSum_eq V c ⟨t.val - 1 - 1, ht2⟩ p q r o 1 (by omega) (by show r.val = (t.val - 1 - 1) / 16 * 1024 + p.val; omega) (by show o.val = (t.val - 1 - 1) / 4 % 4 * 1024 + q.val; omega) (by show (t.val - 1 - 1) % 4 = 1; omega),
    stepSum_eq V c ⟨t.val - 1 - 1 - 1, ht3⟩ p q r o 0 (by omega) (by show r.val = (t.val - 1 - 1 - 1) / 16 * 1024 + p.val; omega) (by show o.val = (t.val - 1 - 1 - 1) / 4 % 4 * 1024 + q.val; omega) (by show (t.val - 1 - 1 - 1) % 4 = 0; omega),
    Ideal.ofBits_zero_f32, zero_add]
  exact (sum_four_runs fun d => xarr V c (ix2 r d) * qarr V c (ix2 o d)).symm

/-- WHAT A LAST STEP WRITES BACK is its block of x · wᵀ + bias. -/
theorem matmul_flushed (c : Dev nD) (t : Fin cfg1.N) (hf : (cfg1.win 3).flush t = true) :
    (mdat (F := Ideal) V c).flushed 3 t
      = ((cfg1.win 3).blk t).view.read (Elt Ideal) (Spec.lin2 (xarr V c) (qarr V c) (barr V c)) := by
  have h3 : t.val % 4 = 3 := (flush1_3 t).mp hf
  have hN : t.val < 128 := lt_of_lt_of_eq t.isLt N_1
  show (cfg1.win 3).cut (grid1.coords t) ((mdat (F := Ideal) V c).after 3 t) = _
  rw [mafter_out]
  obtain ⟨-, -, -, -, -, -, e6, e7⟩ := block_idx_at t
  funext j
  have hj0 : (j 0).val < 1024 := (j 0).isLt
  have hj1 : (j 1).val < 1024 := (j 1).isLt
  show (moutsAt (F := Ideal) V c t.val t.isLt).1 j = Spec.lin2 (xarr V c) (qarr V c) (barr V c) (((cfg1.win 3).blk t).view.emb j)
  have hj : j = ix2 (⟨(j 0).val, hj0⟩ : Fin 1024) (⟨(j 1).val, hj1⟩ : Fin 1024) := by
    funext a
    match a with
    | ⟨0, _⟩ => rfl
    | ⟨1, _⟩ => rfl
  have hi : ((cfg1.win 3).blk t).view.emb j
      = ix2 (⟨t.val / 16 * 1024 + (j 0).val, by omega⟩ : Fin 8192) (⟨t.val / 4 % 4 * 1024 + (j 1).val, by omega⟩ : Fin 4096) := by
    funext a; apply Fin.ext
    match a with
    | ⟨0, _⟩ => show win1_3.index t (0 : Fin 2) * 1024 + 1 * (j 0).val = t.val / 16 * 1024 + (j 0).val; omega
    | ⟨1, _⟩ => show win1_3.index t (1 : Fin 2) * 1024 + 1 * (j 1).val = t.val / 4 % 4 * 1024 + (j 1).val; omega
  rw [hi, Spec.lin2_ix2]
  refine (congrArg (moutsAt (F := Ideal) V c t.val t.isLt).1 hj).trans ?_
  exact out_entry V c t h3 ⟨(j 0).val, hj0⟩ ⟨(j 1).val, hj1⟩ ⟨t.val / 16 * 1024 + (j 0).val, by omega⟩ ⟨t.val / 4 % 4 * 1024 + (j 1).val, by omega⟩ rfl rfl

/-- An index of the array is in point `t`'s output block iff each coordinate is in the block's range on its axis. -/
theorem mem_out_block (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every entry of the array is in the block of some last step: entry `(r, o)` in that of the point with row block
    `r / 1024`, column block `o / 1024` and contraction step 3. -/
theorem entries_covered (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  have hb : 16 * ((i 0).val / 1024) + 4 * ((i 1).val / 1024) + 3 < cfg1.N := by rw [hN]; omega
  refine ⟨⟨16 * ((i 0).val / 1024) + 4 * ((i 1).val / 1024) + 3, hb⟩, (flush1_3 _).mpr (by show (16 * ((i 0).val / 1024) + 4 * ((i 1).val / 1024) + 3) % 4 = 3; omega), ?_⟩
  rw [mem_out_block]
  obtain ⟨-, -, -, -, -, -, e6, e7⟩ := block_idx_at ⟨16 * ((i 0).val / 1024) + 4 * ((i 1).val / 1024) + 3, hb⟩
  dsimp only at e6 e7
  intro a
  match a with
  | ⟨0, _⟩ =>
    show win1_3.index ⟨16 * ((i 0).val / 1024) + 4 * ((i 1).val / 1024) + 3, hb⟩ (0 : Fin 2) * 1024 ≤ (i 0).val ∧ (i 0).val < win1_3.index ⟨16 * ((i 0).val / 1024) + 4 * ((i 1).val / 1024) + 3, hb⟩ (0 : Fin 2) * 1024 + 1024
    rw [e6]; omega
  | ⟨1, _⟩ =>
    show win1_3.index ⟨16 * ((i 0).val / 1024) + 4 * ((i 1).val / 1024) + 3, hb⟩ (1 : Fin 2) * 1024 ≤ (i 1).val ∧ (i 1).val < win1_3.index ⟨16 * ((i 0).val / 1024) + 4 * ((i 1).val / 1024) + 3, hb⟩ (1 : Fin 2) * 1024 + 1024
    rw [e7]; omega

/-- THE ARRAY after the launch: x · wᵀ + bias over the three arrays as the launch found them. -/
theorem matmul_final (c : Dev nD) :
    (mdat (F := Ideal) V c).arrAt 3 cfg1.N = Cert.Spec.lin2 (V c main_v1) (V c main_v0) (V c main_v2) :=
  (mdat (F := Ideal) V c).arrAt_eq_of_cover 3 (Spec.lin2 (xarr V c) (qarr V c) (barr V c)) (fun t hf => matmul_flushed V c t hf) entries_covered

end
end Cert.KernelIdeal.MatmulValue

end
-- ==== Proof.Glue.lean ====
/-
  The reshapes around the linear layer, over the extended reals.
  An array of shape [4, 2048, 4096] flattened to [8192, 4096] puts entry (b, s, d) at row b * 2048 + s, column d, because the
  two indices have the same row-major position; a vector of length 4096 seen as one row [1, 4096] keeps entry o at (0, o).
  So the linear layer computed on the flattened rows and folded back to [4, 2048, 4096] is, entry by entry, the sum over d of
  x (b, s, d) times the ternary weight (o, d), plus bias o.
-/
import proofs.«155224_j74474732912767_1_alg».proof.Proof.Spec
import Idealize.ShloMosaic.Lib.ValueIdx
import Idealize.ShloMosaic.Lib.ValueLayout
import Idealize.ShloMosaic.Lib.Pipeline.Value

noncomputable section

namespace Cert.Glue

open Idealize.ShloMosaic Idealize.ShloMosaic.ValueIdx Cert.Spec

variable {α : Type}

/-- The row of [8192, 4096] that holds row s of batch b of [4, 2048, 4096]. -/
def row (b : Fin 4) (s : Fin 2048) : Fin 8192 := ⟨b.val * 2048 + s.val, by have := b.isLt; have := s.isLt; omega⟩

theorem row_val (b : Fin 4) (s : Fin 2048) : (row b s).val = b.val * 2048 + s.val := rfl

/-- Flattening [4, 2048, 4096] to [8192, 4096]: entry (b * 2048 + s, d) is entry (b, s, d). -/
theorem flatten_apply (x : SX3.Idx → α) (h : SX3.ShapeCasts SX2) (b : Fin 4) (s : Fin 2048) (d : Fin 4096) :
    shapeCast SX2 x h (ix2 (row b s) d) = x (ix3 b s d) :=
  shapeCast_apply x h _ _ (by
    rw [Shape.rowMajor_val_three, Shape.rowMajor_val_two]
    show (b.val * 2048 + s.val) * 4096 + d.val = (b.val * 2048 + s.val) * 4096 + d.val
    rfl)

/-- Folding [8192, 4096] back to [4, 2048, 4096]: entry (b, s, o) is entry (b * 2048 + s, o). -/
theorem fold_apply (y : SX2.Idx → α) (h : SX2.ShapeCasts SX3) (b : Fin 4) (s : Fin 2048) (o : Fin 4096) :
    shapeCast SX3 y h (ix3 b s o) = y (ix2 (row b s) o) :=
  shapeCast_apply y h _ _ (by
    rw [Shape.rowMajor_val_three, Shape.rowMajor_val_two]
    show (b.val * 2048 + s.val) * 4096 + o.val = (b.val * 2048 + s.val) * 4096 + o.val
    rfl)

/-- The bias as one row: entry (0, o) of [1, 4096] is entry o of [4096]. -/
theorem biasRow_apply (bias : SB1.Idx → α) (h : SB1.ShapeCasts SB2) (o : Fin 4096) :
    shapeCast SB2 bias h (ix2 (0 : Fin 1) o) = bias (ix1 o) :=
  shapeCast_a_1a_apply bias h 0 o

/-- The linear layer on the flattened rows, folded back, is the whole result. -/
theorem reshape_lin2 (x : SX3.Idx → EReal) (w : SW.Idx → EReal) (bias : SB1.Idx → EReal)
    (h1 : SX3.ShapeCasts SX2) (h2 : SB1.ShapeCasts SB2) (h3 : SX2.ShapeCasts SX3) :
    shapeCast SX3 (lin2 (shapeCast SX2 x h1) (qW w) (shapeCast SB2 bias h2)) h3 = G x w bias := by
  funext i
  obtain ⟨b, s, o, rfl⟩ : ∃ (b : Fin 4) (s : Fin 2048) (o : Fin 4096), i = ix3 b s o := ⟨i 0, i 1, i 2, eq_ix3 i⟩
  rw [fold_apply, lin2_ix2, G_ix3, biasRow_apply]
  refine congrArg (· + bias (ix1 o)) ?_
  refine Finset.sum_congr rfl fun d _ => ?_
  rw [flatten_apply, qW_ix2]

end Cert.Glue

end
-- ==== Proof.KernelValue.lean ====
/-
  The idealized kernel program's result as a function of the argument arrays: the quantisation launch's output array is
  the array of ternary weights, the matmul launch's is the linear layer over the flattened rows, and the reshapes around
  them make the whole result the specification's.
-/
import proofs.«155224_j74474732912767_1_alg».proof.Proof.Frames
import proofs.«155224_j74474732912767_1_alg».proof.Proof.QuantValue
import proofs.«155224_j74474732912767_1_alg».proof.Proof.MatmulValue
import proofs.«155224_j74474732912767_1_alg».proof.Proof.Glue

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- At the ideal instance the result buffer ends at the specification of the three argument arrays. -/
theorem kernel_value (m : (ℓ : Loc nD τ sig) → Buf (Elt Ideal) ℓ) (c : Dev nD) :
    shapeCast S4x2048x4096 ((mdat (F := Ideal) (V2r m) c).arrAt 3 cfg1.N) shapeCasts_S8192x4096_S4x2048x4096
      = Cert.Spec.G (m ((c : Thread nD τ).loc main_arg0)) (m ((c : Thread nD τ).loc main_arg1)) (m ((c : Thread nD τ).loc main_arg2)) := by
  rw [Cert.KernelIdeal.MatmulValue.matmul_final (V2r m) c, V2r_x, V2r_q, V2r_b,
    Cert.KernelIdeal.QuantValue.quant_final (V0r m) c, V0r_w]
  exact Cert.Glue.reshape_lin2 _ _ _ _ _ _

/-- The idealized kernel program's run with its result at the specification. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_value m c), (h c).2⟩) (run_result (F := Ideal) m ρ)

end Cert.KernelIdeal.Frame

end
-- ==== Proof.RefValue.lean ====
/-
  The reference program's result is the specification.
  Its threshold stage, read at row o, is 0.7f times the mean of the row's absolute values; its two nested selections, read at
  (o, d), are the ternary value of weight (o, d); the stage w + (q - w) is q wherever w is a real number, since q is one of three
  real literals; and the contraction of x with that stage plus the broadcast bias is the specification's sum plus bias.
-/
import proofs.«155224_j74474732912767_1_alg».proof.Proof.Spec
import proofs.«155224_j74474732912767_1_alg».proof.Proof.Gen.ReferenceIdeal.Run
import proofs.«155224_j74474732912767_1_alg».proof.Proof.Gen.ReferenceIdeal.Read

noncomputable section

namespace Cert.RefValue

open Idealize.ShloMosaic Idealize.ShloMosaic.ValueIdx Cert.ReferenceIdeal

/-! ### Three literals are real numbers, and the cancellation over the reals -/

/-- The single-precision word of 1 denotes a real number. -/
theorem one_real : ∃ s : ℝ, Ideal.ofBits .f32 0x3F800000#32 = (s : EReal) := by
  unfold Ideal.ofBits Ideal.ieee
  simp only []
  rw [if_neg (by decide)]
  split_ifs <;> exact ⟨_, rfl⟩

/-- The single-precision word of -1 denotes a real number. -/
theorem negone_real : ∃ s : ℝ, Ideal.ofBits .f32 0xBF800000#32 = (s : EReal) := by
  unfold Ideal.ofBits Ideal.ieee
  simp only []
  rw [if_neg (by decide)]
  split_ifs <;> exact ⟨_, rfl⟩

/-- The single-precision zero word denotes a real number. -/
theorem zero_real : ∃ s : ℝ, Ideal.ofBits .f32 0x00000000#32 = (s : EReal) := by
  unfold Ideal.ofBits Ideal.ieee
  simp only []
  rw [if_neg (by decide)]
  split_ifs <;> exact ⟨_, rfl⟩

/-- Over the reals, r + (s - r) = s; in the extended reals this holds for real r and s. -/
theorem add_sub_self_real (r s : ℝ) : (r : EReal) + ((s : EReal) - (r : EReal)) = (s : EReal) := by
  rw [← EReal.coe_sub, ← EReal.coe_add]; congr 1; ring

/-- A ternary value is one of the three literals, hence a real number. -/
theorem tern_real (w : Spec.SW.Idx → EReal) (o d : Fin 4096) : ∃ s : ℝ, Spec.tern w o d = (s : EReal) := by
  unfold Spec.tern Scalar.select
  split_ifs
  · exact one_real
  · exact negone_real
  · exact zero_real

/-! ### The stages read at coordinates -/

/-- The threshold stage at row o (its second axis has the one coordinate) is the specification's threshold of row o. -/
theorem v6_at (w : (⟨S4096x4096, .f32⟩ : BufTy).Contents (Elt Ideal)) (o : Fin 4096) (z : Fin 1) :
    Read.val_main_v6 (F := Ideal) w (ix2 o z) = Spec.thresh w o := by
  rw [Read.val_main_v6_apply, Read.val_main_v5_apply, Read.val_main_cst_1_apply, Read.val_main_v4_apply,
    Read.val_main_v3_apply, Read.val_main_cst_0_apply, Read.val_main_v2_apply, Read.val_main_v1_apply,
    Read.val_main_cst_apply]
  have h : ∀ k : Fin 4096, Read.val_main_v0 (F := Ideal) w (Read.idx_main_v1 (Read.idx_main_v2 (ix2 o z)) k)
      = max (w (ix2 o k)) (-(w (ix2 o k))) := by
    intro k
    rw [Read.val_main_v0_apply]
    have e : Read.idx_main_v1 (Read.idx_main_v2 (ix2 o z)) k = ix2 o k := by
      funext a; match a with | ⟨0, _⟩ => rfl | ⟨1, _⟩ => rfl
    rw [e]; rfl
  rw [Finset.sum_congr rfl (fun k _ => h k)]
  rfl

/-- The broadcast of the threshold stage reads row o at the one coordinate. -/
theorem idx_v7_ix2 (o d : Fin 4096) : Read.idx_main_v7 (ix2 o d) = ix2 o (⟨0, Nat.one_pos⟩ : Fin 1) := by
  funext a; match a with | ⟨0, _⟩ => rfl | ⟨1, _⟩ => rfl

/-- The broadcast of the negated threshold stage reads row o at the one coordinate. -/
theorem idx_v10_ix2 (o d : Fin 4096) : Read.idx_main_v10 (ix2 o d) = ix2 o (⟨0, Nat.one_pos⟩ : Fin 1) := by
  funext a; match a with | ⟨0, _⟩ => rfl | ⟨1, _⟩ => rfl

/-- The nested selections at (o, d) are the ternary value of weight (o, d). -/
theorem v13_at (w : (⟨S4096x4096, .f32⟩ : BufTy).Contents (Elt Ideal)) (o d : Fin 4096) :
    Read.val_main_v13 (F := Ideal) w (ix2 o d) = Spec.tern w o d := by
  rw [Read.val_main_v13_apply, Read.val_main_v8_apply, Read.val_main_v7_apply, Read.val_main_call1_v0_apply,
    Read.val_main_cst_4_apply, Read.val_main_v12_apply, Read.val_main_v11_apply, Read.val_main_v10_apply,
    Read.val_main_v9_apply, Read.val_main_call0_v0_apply, Read.val_main_cst_2_apply, Read.val_main_call0_v1_apply,
    Read.val_main_cst_3_apply, idx_v7_ix2, idx_v10_ix2, v6_at]
  rfl

/-- Where every weight is a real number, the stage w + (q - w) at (o, d) is the ternary value. -/
theorem v16_at (w : (⟨S4096x4096, .f32⟩ : BufTy).Contents (Elt Ideal)) (hw : ∀ i, ∃ r : ℝ, w i = (r : EReal))
    (o d : Fin 4096) : Read.val_main_v16 (F := Ideal) w (ix2 o d) = Spec.tern w o d := by
  rw [Read.val_main_v16_apply, Read.val_main_v15_apply, Read.val_main_v14_apply, v13_at]
  obtain ⟨s, hs⟩ := tern_real w o d
  obtain ⟨r, hr⟩ := hw (ix2 o d)
  rw [hs, hr]
  exact add_sub_self_real r s

/-! ### The result -/

/-- The reference program's result, as a function of its three arguments with every weight a real number, is the specification. -/
theorem ref_eq_G (x : (⟨Cert.ReferenceIdeal.S4x2048x4096, .f32⟩ : BufTy).Contents (Elt Ideal))
    (w : (⟨Cert.ReferenceIdeal.S4096x4096, .f32⟩ : BufTy).Contents (Elt Ideal))
    (b : (⟨Cert.ReferenceIdeal.S4096, .f32⟩ : BufTy).Contents (Elt Ideal))
    (hw : ∀ i, ∃ r : ℝ, w i = (r : EReal)) :
    Cert.ReferenceIdeal.Read.val_main_v20 (F := Ideal) x w b = Cert.Spec.G x w b := by
  funext i
  obtain ⟨bb, s, o, rfl⟩ : ∃ bb s o, i = ix3 bb s o := ⟨_, _, _, eq_ix3 i⟩
  rw [Spec.G_ix3, Read.val_main_v20_apply, Read.val_main_v17_apply, Read.val_main_v19_apply, Read.val_main_v18_apply]
  have e1 : Read.idx_main_v18 (Read.idx_main_v19 (ix3 bb s o)) = ix1 o := by
    funext a; match a with | ⟨0, _⟩ => rfl
  have e2 : ∀ k : Fin 4096, Read.lidx_main_v17 (ix3 bb s o) k = ix3 bb s k := by
    intro k; funext a; match a with | ⟨0, _⟩ => rfl | ⟨1, _⟩ => rfl | ⟨2, _⟩ => rfl
  have e3 : ∀ k : Fin 4096, Read.ridx_main_v17 (ix3 bb s o) k = ix2 o k := by
    intro k; funext a; match a with | ⟨0, _⟩ => rfl | ⟨1, _⟩ => rfl
  rw [e1, Finset.sum_congr rfl (fun k _ => by rw [e2 k, e3 k, v16_at w hw o k])]
  rfl

end Cert.RefValue

end
-- ==== Proof.FiniteW.lean ====
import proofs.«155224_j74474732912767_1_alg».proof.Pre_finite_inputs
import proofs.«155224_j74474732912767_1_alg».proof.Proof.Gen.Pre_finite_inputs
import Idealize.ShloMosaic.Lib.ReduceAll
import Idealize.ShloMosaic.Lib.ValueIdx
import Idealize.ShloMosaic.PureOps.Ideal.Laws

/-!
# From the finiteness precondition to real-valued entries

The precondition says that the conjunction, over all three inputs, of "every entry has absolute value
strictly below +∞" is true.  In the extended reals the absolute value of an entry is `max a (-a)`,
which is `⊤` exactly at the two infinities; so an entry whose absolute value is below `⊤` is a real
number.  Each conjunct is an `and`-reduction over all axes of an array of one-bit comparisons, which is
`1` only if every compared entry gave `1`.
-/

namespace Cert.FiniteW

open Idealize.ShloMosaic Cert.Pre_finite_inputs

/-- The scalar shape has exactly one index. -/
instance subsingleton_scalar_idx : Subsingleton S_.Idx := ⟨fun a b => funext fun d => d.elim0⟩

/-- The single-precision word `0x7F800000` denotes `+∞`. -/
theorem inf_eq : Ideal.ofBits .f32 0x7F800000#32 = (⊤ : EReal) := by
  simp [Ideal.ofBits, Ideal.ieee]

/-- An extended real whose absolute value `max a (-a)` is strictly below `+∞` is a real number. -/
theorem real_of_abs_lt (a : EReal)
    (h : Ideal.cmp .olt (max a (-a)) (Ideal.ofBits .f32 0x7F800000#32) = 1#1) : ∃ r : ℝ, a = (r : EReal) := by
  rw [inf_eq] at h
  induction a using EReal.rec with
  | bot => simp [Ideal.cmp] at h
  | coe r => exact ⟨r, rfl⟩
  | top => simp [Ideal.cmp] at h

/-- The three `all`-reductions of the precondition, separated: each one is `1`. -/
theorem split_pre [hP : Facts]
    (x : FVec Ideal S4x2048x4096 .f32) (w : FVec Ideal S4096x4096 .f32) (b : FVec Ideal S4096 .f32)
    (h : fn (F := Ideal) x w b = fun _ => 1#1) :
    (∀ i, Ideal.cmp .olt (max (x i) (-(x i))) (Ideal.ofBits .f32 0x7F800000#32) = 1#1) ∧
    (∀ i, Ideal.cmp .olt (max (w i) (-(w i))) (Ideal.ofBits .f32 0x7F800000#32) = 1#1) ∧
    (∀ i, Ideal.cmp .olt (max (b i) (-(b i))) (Ideal.ofBits .f32 0x7F800000#32) = 1#1) := by
  have h0 := congrFun h ValueIdx.ix0
  dsimp only [fn] at h0
  obtain ⟨hxw, hb⟩ := IntOp.andi_eq_one.1 h0
  obtain ⟨hx, hw⟩ := IntOp.andi_eq_one.1 hxw
  exact ⟨fun i => Host.reduce_andi_all _ _ _ _ _ hx i,
    fun i => Host.reduce_andi_all _ _ _ _ _ hw i,
    fun i => Host.reduce_andi_all _ _ _ _ _ hb i⟩

/-- Under the precondition every entry of the weight matrix is a real number. -/
theorem finite_of_pre [hP : Cert.Pre_finite_inputs.Facts]
    (x : FVec Ideal Cert.Pre_finite_inputs.S4x2048x4096 .f32) (w : FVec Ideal Cert.Pre_finite_inputs.S4096x4096 .f32)
    (b : FVec Ideal Cert.Pre_finite_inputs.S4096 .f32)
    (h : Cert.Pre_finite_inputs.fn (F := Ideal) x w b = fun _ => 1#1) :
    (∀ i, ∃ r : ℝ, w i = (r : EReal)) :=
  fun i => real_of_abs_lt (w i) ((split_pre x w b h).2.1 i)

/-- Under the precondition every entry of the activation array is a real number. -/
theorem finite_x_of_pre [hP : Cert.Pre_finite_inputs.Facts]
    (x : FVec Ideal Cert.Pre_finite_inputs.S4x2048x4096 .f32) (w : FVec Ideal Cert.Pre_finite_inputs.S4096x4096 .f32)
    (b : FVec Ideal Cert.Pre_finite_inputs.S4096 .f32)
    (h : Cert.Pre_finite_inputs.fn (F := Ideal) x w b = fun _ => 1#1) :
    (∀ i, ∃ r : ℝ, x i = (r : EReal)) :=
  fun i => real_of_abs_lt (x i) ((split_pre x w b h).1 i)

/-- Under the precondition every entry of the bias vector is a real number. -/
theorem finite_b_of_pre [hP : Cert.Pre_finite_inputs.Facts]
    (x : FVec Ideal Cert.Pre_finite_inputs.S4x2048x4096 .f32) (w : FVec Ideal Cert.Pre_finite_inputs.S4096x4096 .f32)
    (b : FVec Ideal Cert.Pre_finite_inputs.S4096 .f32)
    (h : Cert.Pre_finite_inputs.fn (F := Ideal) x w b = fun _ => 1#1) :
    (∀ i, ∃ r : ℝ, b i = (r : EReal)) :=
  fun i => real_of_abs_lt (b i) ((split_pre x w b h).2.2 i)

end Cert.FiniteW
-- ==== Proof.lean ====
/-
  The certificate's five claims.

  Both programs compute x · qᵀ + bias, q the ternary quantisation of the weights by each row's threshold 0.7f · mean|w|.
  The kernel does it in two launches (quantise once, then a tiled matmul accumulating over four blocks of the contraction
  axis); the reference in one host program that spells q as w + (q − w), which is q because the precondition makes every
  weight a real number. On the extended reals addition is commutative and associative, so the blocked accumulation is the
  whole sum; changes of float format are the identity. The three frames: the two kernel programs by the run of their two
  launches and three reshapes; the reference by its run with the result dropped. The idealization rewrote nothing.
-/
import proofs.«155224_j74474732912767_1_alg».proof.Defs
import proofs.«155224_j74474732912767_1_alg».proof.Proof.Gen.Kernel
import proofs.«155224_j74474732912767_1_alg».proof.Proof.Gen.KernelIdeal
import proofs.«155224_j74474732912767_1_alg».proof.Proof.Gen.ReferenceIdeal
import proofs.«155224_j74474732912767_1_alg».proof.Proof.Gen.Pre_finite_inputs
import proofs.«155224_j74474732912767_1_alg».proof.Proof.KFrames
import proofs.«155224_j74474732912767_1_alg».proof.Proof.KernelValue
import proofs.«155224_j74474732912767_1_alg».proof.Proof.RefValue
import proofs.«155224_j74474732912767_1_alg».proof.Proof.FiniteW
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification of the (agreeing) arguments; the reference's needs the weights real. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  have hw := Cert.FiniteW.finite_of_pre _ _ _ (hpre c)
  rw [Cert.ReferenceIdeal.Read.val_main_v20_eq, (hagree c).1, (hagree c).2.1, (hagree c).2.2]
  exact Cert.RefValue.ref_eq_G _ _ _ hw

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
